-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) (main_arg2 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S256x4096 : Shape := ⟨2, ![256, 4096]⟩
abbrev S1024x512 : Shape := ⟨2, ![1024, 512]⟩
abbrev S2048x512 : Shape := ⟨2, ![2048, 512]⟩
abbrev S1024x2048 : Shape := ⟨2, ![1024, 2048]⟩
abbrev S512x2048 : Shape := ⟨2, ![512, 2048]⟩

abbrev nBuf : Space → Nat
  | .hbm => 5
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .bf16⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .bf16⟩
  | .local _ .vmem, ⟨5, _⟩ => ⟨S256x4096, .bf16⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | .local _ .vmem, ⟨10, _⟩ => ⟨S1024x2048, .f32⟩
  | .local _ .vmem, ⟨11, _⟩ => ⟨S1024x2048, .f32⟩
  | .local _ .vmem, ⟨12, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S8192x4096.size a
  hwx1_2 : ∀ i : grid1.Coords, EltTy.bits .f32 = 32 ∨ (Rect.block (s := S8192x4096) S1024x2048.size (cc1_transform_2 i) (hinb1_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Kernel.Mask.lean ====
/-
  The masking pallas_call of the expander layer (weight ⊙ mask, narrowed to bf16), as a pipeline region: its body's
  run, its proof data and its body obligation, at any float instance.
-/
import proofs.«170742_j17849884082830_1_alg».proof.Proof.Gen.Kernel.Launch
import proofs.«170742_j17849884082830_1_alg».proof.Proof.Gen.Kernel.Skeleton
import proofs.«170742_j17849884082830_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The masking call (pipeline 0): weight ⊙ mask, one 256-row band per grid point

Sixteen grid points; point t fetches rows 256·t … 256·t+255 of the weight and of the mask, multiplies them entry by
entry, narrows the product to bf16 and writes the band back. Everything here is stated at a PARAMETER `V`, the
buffer contents the call is entered from. -/

variable (V : (c : Dev nD) → (b : Ref sig .tc) → Buf (Elt F) ((c : Thread nD τ).loc b))

/-- Band `t` of window `w`'s array, as the call finds the array. -/
def mblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight's staging buffer holds its band at every point: the band is fetched whole at every point. -/
theorem mask_before0_of {c : Dev nD} (dat : Dat τ (Elt F) Unit ℕ (UR sig nD τ) ℕ cfg0 c) (hA : dat.A 0 = V c (Pipeline.arrRef spec0 0))
    (hafter : ∀ t, dat.after 0 t = mblk V c 0 t) (t : Fin cfg0.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-- The same for the mask's staging buffer. -/
theorem mask_before1_of {c : Dev nD} (dat : Dat τ (Elt F) Unit ℕ (UR sig nD τ) ℕ cfg0 c) (hA : dat.A 1 = V c (Pipeline.arrRef spec0 1))
    (hafter : ∀ t, dat.after 1 t = mblk V c 1 t) (t : Fin cfg0.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)

/-- The offsets of the body's whole-buffer accesses are zero. -/
theorem off00 : (![0, 0] : Fin 2 → Nat) = fun _ => 0 := funext fun a => by fin_cases a <;> rfl

/-- The whole 256×4096 band, the one rectangle the body loads and stores through. -/
abbrev bandRect : Rect S256x4096 := Rect.unit (s := S256x4096) ![0, 0] S256x4096.size inb_S256x4096_S256x4096_0_0

/-- The one store through the whole band covers the band. -/
theorem band_cover (p0 : Vec F S256x4096 .bf16) (y : S256x4096.Idx) :
    ∃ pc ∈ ([⟨bandRect, p0⟩] : List (View.Piece (Elt F) S256x4096 .bf16)), y ∈ pc.1.set :=
  ⟨_, List.mem_singleton_self _, View.mem_set_unit_zero off00 inb_S256x4096_S256x4096_0_0 y⟩

set_option maxHeartbeats 1000000 in
/-- The body on whole staging buffers: with the weight band `x0` and the mask band `x1` in its input buffers, it ends
    with both where they were and the output buffer holding the narrowed product `k0_pay1 x0 x1`. -/
theorem mask_kernel_run (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (band_cover _)).trans ?_
  rw [View.canon_unit_zero off00]
  simp only [View.readAt_eq_ld, View.ld_unit_zero (S := S256x4096) off00]

/-- The proof data of the masking call on core `c`: arrays as found; after the body at point `t` each input buffer still
    holds its band and the output buffer the narrowed product of the two bands; between points the body keeps nothing
    of its own (the scoped rest and the generator register pass through); nothing owed; full shares. -/
def maskDat (c : Dev nD) : Dat τ (Elt F) Unit ℕ (UR sig nD τ) ℕ cfg0 c where
  A w := V c (Pipeline.arrRef spec0 w)
  after w t := match w with
    | ⟨0, _⟩ => mblk V c 0 t
    | ⟨1, _⟩ => mblk V c 1 t
    | ⟨2, _⟩ => k0_pay1 (mblk V c 0 t) (mblk V c 1 t)
  Φ _ := Pipeline.ΦA spec0 c
  q _ := fullShare
  owed _ := 0

theorem maskDat_A (c : Dev nD) (w : Fin cfg0.W) : (maskDat V c).A w = V c (Pipeline.arrRef spec0 w) := by
  dsimp only [maskDat]

theorem maskDat_after0 (c : Dev nD) (t : Fin cfg0.N) : (maskDat V c).after 0 t = mblk V c 0 t := by dsimp only [maskDat]
theorem maskDat_after1 (c : Dev nD) (t : Fin cfg0.N) : (maskDat V c).after 1 t = mblk V c 1 t := by dsimp only [maskDat]
theorem maskDat_after2 (c : Dev nD) (t : Fin cfg0.N) :
    (maskDat V c).after 2 t = k0_pay1 (mblk V c 0 t) (mblk V c 1 t) := by dsimp only [maskDat]

theorem maskDat_before0 (c : Dev nD) (t : Fin cfg0.N) (d) : (maskDat V c).before 0 t d = mblk V c 0 t :=
  mask_before0_of V (maskDat V c) (maskDat_A V c 0) (maskDat_after0 V c) t d
theorem maskDat_before1 (c : Dev nD) (t : Fin cfg0.N) (d) : (maskDat V c).before 1 t d = mblk V c 1 t :=
  mask_before1_of V (maskDat V c) (maskDat_A V c 1) (maskDat_after1 V c) t d

/-- What the body is called with at point `t`, the windows one by one, -/
def maskPre (c : Dev nD) (t : Fin cfg0.N) : sProp 𝕄 :=
  iprop((maskDat V c).Φ t.castSucc ∗ (maskDat V c).owesAt () t.castSucc
    ∗ (∃ d, owns (c : Thread nD τ) (st0_0 t) fullShare ((maskDat V c).before 0 t d))
    ∗ (∃ d, owns (c : Thread nD τ) (st0_1 t) fullShare ((maskDat V c).before 1 t d))
    ∗ (∃ d, owns (c : Thread nD τ) (st0_2 t) fullShare ((maskDat V c).before 2 t d)))

/-- and what it returns. -/
def maskPost (c : Dev nD) (t : Fin cfg0.N) : sProp 𝕄 :=
  iprop((maskDat V c).Φ t.succ ∗ (maskDat V c).owesAt () t.succ
    ∗ owns (c : Thread nD τ) (st0_0 t) fullShare ((maskDat V c).after 0 t)
    ∗ owns (c : Thread nD τ) (st0_1 t) fullShare ((maskDat V c).after 1 t)
    ∗ owns (c : Thread nD τ) (st0_2 t) fullShare ((maskDat V c).after 2 t))

/-- The body at any point: the input buffers hold their bands, so the body's run applies; the invariant and what
    the core owes pass through unread. -/
theorem mask_body (c : Dev nD) (t : Fin cfg0.N) :
    maskPre V c t ⊢ wp frame (wpE (defs₀ (F := F)) Variants.none c none) Set.univ (bodyAt0 t) (fun _ => maskPost V c t) := by
  unfold maskPre maskPost bodyAt0
  simp only [maskDat_before0, maskDat_before1]
  rw [show (maskDat V c).Φ t.succ = (maskDat V c).Φ t.castSucc from rfl,
    show (maskDat V c).owesAt () t.succ = (maskDat V c).owesAt () t.castSucc from rfl,
    maskDat_after0, maskDat_after1, maskDat_after2]
  iintro ⟨HΦ, Ho, ⟨%d0, H0⟩, ⟨%d1, H1⟩, ⟨%d2, H2⟩⟩
  iapply (mask_kernel_run c Set.univ _ _ _ _ _ _ _ (mblk V c 0 t) (mblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the masking call, at every point. -/
theorem mask_obligation (c : Dev nD) : BodyObligation (maskDat (F := F) V c) (defs₀ (F := F)) Variants.none () Set.univ := fun t => by
  rw [bigSep_W0, bigSep_W0]
  exact mask_body V c t

end Cert.Kernel.Hand

end
-- ==== Proof.Kernel.Acc.lean ====
/-
  The product pallas_call of the expander layer (x times the masked weight's transpose, summed over eight K-blocks in a
  scratch accumulator), as a pipeline region: its body's run in each of its three cases, what the accumulator holds
  after every grid point, its proof data and its body obligation, at any float instance.
-/
import proofs.«170742_j17849884082830_1_alg».proof.Proof.Gen.Kernel.Launch
import proofs.«170742_j17849884082830_1_alg».proof.Proof.Gen.Kernel.Skeleton
import proofs.«170742_j17849884082830_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The product call (pipeline 1): x · (masked weight)ᵀ, accumulated over eight K-blocks in a scratch buffer

The grid is 8 × 2 × 8, the last axis the reduction: point (i, j, k) fetches the 1024×512 block (i, k) of x and the
2048×512 block (j, k) of the masked weight. At k = 0 the body zeroes a 1024×2048 scratch accumulator; at every point it
adds the block product into it; at k = 7 it copies the accumulator into the output's staging buffer, which the
pipeline then writes back as block (i, j). At the other points the output window is idle. Everything here is stated
at a PARAMETER `V`, the buffer contents the call is entered from. -/

variable (V : (c : Dev nD) → (b : Ref sig .tc) → Buf (Elt F) ((c : Thread nD τ).loc b))

/-- Block `t` of window `w`'s array, as the call finds the array. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds its block at every point (fetched whole at every point). -/
theorem acc_before0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

/-- The same for the masked weight's window. -/
theorem acc_before1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

/-- The two input blocks at a point, at their literal types. -/
abbrev xblk (c : Dev nD) (t : Fin cfg1.N) : Vec F S1024x512 .f32 := ablk V c 0 t
abbrev wblk (c : Dev nD) (t : Fin cfg1.N) : Vec F S2048x512 .bf16 := ablk V c 1 t

/-! ## The two conditions, over the grid -/

/-- "k = 0": the accumulator is zeroed. -/
abbrev firstK (i : grid1.Coords) : Prop :=
  (Scalar.cmpi .ne (Scalar.extui (Scalar.cmpi .eq (BitVec.ofNat 32 (i 2).val) 0#32)) 0#32) = 1#1
/-- "k = 7": the accumulator is copied out. -/
abbrev lastK (i : grid1.Coords) : Prop := k1_cond2 i = 1#1

/-- The reduction axis is the fastest: k is the point's number modulo 8. -/
theorem firstK_iff : ∀ t : Fin cfg1.N, firstK (grid1.coords t) ↔ t.val % 8 = 0 :=
  (by decide +kernel : ∀ t : Fin grid1.N, firstK (grid1.coords t) ↔ t.val % 8 = 0)
theorem lastK_iff : ∀ t : Fin cfg1.N, lastK (grid1.coords t) ↔ t.val % 8 = 7 :=
  (by decide +kernel : ∀ t : Fin grid1.N, lastK (grid1.coords t) ↔ t.val % 8 = 7)

/-- The inputs are never idle; the output is idle, and not written back, exactly away from k = 7. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬lastK (grid1.coords t) → cfg1.idle 2 (grid1.coords t) = true := by decide +kernel
theorem noflush1_2 : ∀ t : Fin cfg1.N, ¬lastK (grid1.coords t) → (cfg1.win 2).flush t = false := by decide +kernel
theorem live1_2 : ∀ t : Fin cfg1.N, lastK (grid1.coords t) → cfg1.idle 2 (grid1.coords t) = false := by decide +kernel

/-! ## The body's run, case by case -/

theorem zeroOff : (![0, 0] : Fin 2 → Nat) = fun _ => 0 := funext fun a => by fin_cases a <;> rfl

/-- The whole 1024×2048 buffer, the one rectangle the accumulator and the output are accessed through. -/
abbrev accRect : Rect S1024x2048 := Rect.unit (s := S1024x2048) ![0, 0] S1024x2048.size inb_S1024x2048_S1024x2048_0_0

/-- A list of stores whose LAST one goes through the whole buffer covers the buffer. -/
theorem acc_cover (p0 : Vec F S1024x2048 .f32) (L : List (View.Piece (Elt F) S1024x2048 .f32)) (y : S1024x2048.Idx) :
    ∃ pc ∈ ((⟨accRect, p0⟩ : View.Piece (Elt F) S1024x2048 .f32) :: L), y ∈ pc.1.set :=
  ⟨_, List.mem_cons_self, View.mem_set_unit_zero zeroOff inb_S1024x2048_S1024x2048_0_0 y⟩

set_option maxHeartbeats 2000000 in
/-- k = 0 (and not 7): whatever the accumulator held, it ends at the block product added to zero; the output's
    buffer is handed back untouched. -/
theorem acc_run_first (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : firstK i) (hc1 : ¬lastK i)
    (x : Vec F S1024x512 .f32) (w : Vec F S2048x512 .bf16) (xi : Vec F S1024x2048 .f32) (E : Set ℕ) (K : PUnit → sProp 𝕄) :
    iprop(owns (c : Thread nD τ) arg3 fullShare x ∗ owns (c : Thread nD τ) arg4 fullShare w ∗ owns (c : Thread nD τ) arg5 fullShare xi ∗ (∃ d, owns (c : Thread nD τ) arg6 fullShare d)
        ∗ (iprop(owns (c : Thread nD τ) arg3 fullShare x ∗ owns (c : Thread nD τ) arg4 fullShare w ∗ owns (c : Thread nD τ) arg5 fullShare xi ∗ owns (c : Thread nD τ) arg6 fullShare (k1_pay2 x w (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  refine (View.read_writes_eq_canon _ _ _ (acc_cover _ _)).trans ?_
  rw [View.canon_cons_unit_zero zeroOff]
  simp only [View.readAt_eq_ld, View.ld_unit_zero (S := S1024x512) zeroOff, View.ld_unit_zero (S := S2048x512) zeroOff,
    View.ld_unit_zero (S := S1024x2048) zeroOff, View.readCov_unit_zero (S := S1024x2048) _ zeroOff]

set_option maxHeartbeats 2000000 in
/-- 0 < k < 7: the accumulator at `s` ends at `s` plus the block product; the output's buffer is handed back untouched. -/
theorem acc_run_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬firstK i) (hc1 : ¬lastK i)
    (x : Vec F S1024x512 .f32) (w : Vec F S2048x512 .bf16) (xi : Vec F S1024x2048 .f32) (s : Vec F S1024x2048 .f32) (E : Set ℕ) (K : PUnit → sProp 𝕄) :
    iprop(owns (c : Thread nD τ) arg3 fullShare x ∗ owns (c : Thread nD τ) arg4 fullShare w ∗ owns (c : Thread nD τ) arg5 fullShare xi ∗ owns (c : Thread nD τ) arg6 fullShare s
        ∗ (iprop(owns (c : Thread nD τ) arg3 fullShare x ∗ owns (c : Thread nD τ) arg4 fullShare w ∗ owns (c : Thread nD τ) arg5 fullShare xi ∗ owns (c : Thread nD τ) arg6 fullShare (k1_pay2 x w s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (acc_cover _ _)).trans ?_
  rw [View.canon_unit_zero zeroOff]
  simp only [View.readAt_eq_ld, View.ld_unit_zero (S := S1024x512) zeroOff, View.ld_unit_zero (S := S2048x512) zeroOff,
    View.ld_unit_zero (S := S1024x2048) zeroOff]

set_option maxHeartbeats 2000000 in
/-- k = 7 (and not 0): the accumulator at `s` ends at `s` plus the block product, and so does the output's buffer. -/
theorem acc_run_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬firstK i) (hc1 : lastK i)
    (x : Vec F S1024x512 .f32) (w : Vec F S2048x512 .bf16) (s : Vec F S1024x2048 .f32) (E : Set ℕ) (K : PUnit → sProp 𝕄) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (k1_pay2 x w s) ∗ owns (c : Thread nD τ) arg6 fullShare (k1_pay2 x w s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    refine (View.read_writes_eq_canon _ _ _ (acc_cover _ _)).trans ?_
    rw [View.canon_cons_unit_zero zeroOff]
    simp only [View.readAt_eq_ld, View.ld_unit_zero (S := S1024x512) zeroOff, View.ld_unit_zero (S := S2048x512) zeroOff,
      View.ld_unit_zero (S := S1024x2048) zeroOff, View.readCov_unit_zero (S := S1024x2048) _ zeroOff]
  iexists _; isplitr
  swap; · iexact H6
  ipureintro
  sl_unfold_words
  refine (View.read_writes_eq_canon _ _ _ (acc_cover _ _)).trans ?_
  rw [View.canon_cons_unit_zero zeroOff]
  simp only [View.readAt_eq_ld, View.ld_unit_zero (S := S1024x512) zeroOff, View.ld_unit_zero (S := S2048x512) zeroOff,
    View.ld_unit_zero (S := S1024x2048) zeroOff, View.readCov_unit_zero (S := S1024x2048) _ zeroOff]

/-! ## The accumulator, point by point -/

/-- What the scratch accumulator holds after the body at point `n`: at a point with k = 0 the block product added to
    zero, at any other point the block product added to what the point before left. -/
def scrAt (c : Dev nD) : (n : ℕ) → n < cfg1.N → Vec F S1024x2048 .f32
  | 0, hn => k1_pay2 (xblk V c ⟨0, hn⟩) (wblk V c ⟨0, hn⟩) (k1_pay1 (F := F))
  | n + 1, hn =>
    if (n + 1) % 8 = 0 then k1_pay2 (xblk V c ⟨n + 1, hn⟩) (wblk V c ⟨n + 1, hn⟩) (k1_pay1 (F := F))
    else k1_pay2 (xblk V c ⟨n + 1, hn⟩) (wblk V c ⟨n + 1, hn⟩) (scrAt c n (Nat.lt_of_succ_lt hn))

/-- At a point with k = 0 the accumulator restarts. -/
theorem scrAt_first (c : Dev nD) (t : Fin cfg1.N) (h : t.val % 8 = 0) :
    scrAt V c t.val t.isLt = k1_pay2 (xblk V c t) (wblk V c t) (k1_pay1 (F := F)) := by
  obtain ⟨n, hn⟩ := t
  cases n with
  | zero => rfl
  | succ n => exact if_pos h

/-- At any other point it steps from what the point before left. -/
theorem scrAt_next (c : Dev nD) (t : Fin cfg1.N) (h : ¬t.val % 8 = 0) :
    scrAt V c t.val t.isLt
      = k1_pay2 (xblk V c t) (wblk V c t) (scrAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch accumulator, as the body is passed it. -/
abbrev scr : Memref sig .tc .vmem S1024x2048 .f32 := Memref.whole cc1_scratch0

/-- The scoped buffers this call never touches (the masking call's staging buffers), each at some contents. -/
def idleScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What the launch hands a region with nothing of its own to keep: here, the idle scoped buffers, the accumulator at
    some contents, the generator register at some state. -/
theorem PhiA_split (c : Dev nD) :
    (Pipeline.ΦA spec1 c : sProp 𝕄) ⊢ iprop(idleScoped (F := F) c ∗ (∃ d, owns (c : Thread nD τ) scr fullShare d) ∗ (∃ r, prngReg c r)) := by
  unfold Pipeline.ΦA idleScoped; rw [scopedRest1_eq]; simp only [scr, owns_whole]
  iintro ⟨⟨H0, H1, H2, H3, H4, H5, HS⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS]; · iexact HS
  iexact Hg

theorem PhiA_join (c : Dev nD) :
    iprop(idleScoped (F := F) c ∗ (∃ d, owns (c : Thread nD τ) scr fullShare d) ∗ (∃ r, prngReg c r)) ⊢ (Pipeline.ΦA spec1 c : sProp 𝕄) := by
  unfold Pipeline.ΦA idleScoped; rw [scopedRest1_eq]; simp only [scr, owns_whole]
  iintro ⟨⟨H0, H1, H2, H3, H4, H5⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HS
  iexact Hg

/-- The invariant before position `n`: before the first point what the launch hands over; afterwards the same with
    the accumulator at what the point before left in it. -/
def AccInv (c : Dev nD) : (n : ℕ) → n ≤ cfg1.N → sProp 𝕄
  | 0, _ => Pipeline.ΦA spec1 c
  | n + 1, hn => iprop(idleScoped (F := F) c ∗ owns (c : Thread nD τ) scr fullShare (scrAt V c n hn) ∗ (∃ r, prngReg c r))

theorem AccInv_zero (c : Dev nD) (n : ℕ) (h : n ≤ cfg1.N) (hz : n = 0) : AccInv V c n h = Pipeline.ΦA spec1 c := by
  subst hz; rfl

theorem AccInv_succ (c : Dev nD) (n : ℕ) (hn : n < cfg1.N) :
    AccInv V c (n + 1) hn = iprop(idleScoped (F := F) c ∗ owns (c : Thread nD τ) scr fullShare (scrAt V c n hn) ∗ (∃ r, prngReg c r)) := rfl

theorem AccInv_pos (c : Dev nD) (n : ℕ) (h : n ≤ cfg1.N) (hz : n ≠ 0) :
    AccInv V c n h = iprop(idleScoped (F := F) c ∗ owns (c : Thread nD τ) scr fullShare (scrAt V c (n - 1) (by omega)) ∗ (∃ r, prngReg c r)) := by
  cases n with
  | zero => exact absurd rfl hz
  | succ n => rfl

/-- Whatever the position, the invariant holds the accumulator at SOME contents. -/
theorem AccInv_any (c : Dev nD) (n : ℕ) (h : n ≤ cfg1.N) :
    AccInv V c n h ⊢ iprop(idleScoped (F := F) c ∗ (∃ d, owns (c : Thread nD τ) scr fullShare d) ∗ (∃ r, prngReg c r)) := by
  cases n with
  | zero => exact PhiA_split c
  | succ n =>
    rw [AccInv_succ]
    iintro ⟨Hi, HS, Hg⟩
    isplitl [Hi]; · iexact Hi
    isplitl [HS]; · iexists _; iexact HS
    iexact Hg

/-! ## The proof data and the body obligation -/

/-- The proof data of the product call on core `c`: arrays as found; after the body at point `t` each input buffer still
    holds its block, and the output buffer (where it is not idle) the accumulator's contents; the invariant carries the
    accumulator from point to point; nothing owed; full shares. -/
def accDat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => scrAt V c t.val t.isLt
  Φ t := AccInv V c t.val (Nat.le_of_lt_succ t.isLt)
  q _ := fullShare
  owed _ := 0

theorem accDat_A (c : Dev nD) (w : Fin cfg1.W) : (accDat V c).A w = V c (Pipeline.arrRef spec1 w) := by
  dsimp only [accDat]

theorem accDat_after0 (c : Dev nD) (t : Fin cfg1.N) : (accDat V c).after 0 t = ablk V c 0 t := by dsimp only [accDat]
theorem accDat_after1 (c : Dev nD) (t : Fin cfg1.N) : (accDat V c).after 1 t = ablk V c 1 t := by dsimp only [accDat]
theorem accDat_after2 (c : Dev nD) (t : Fin cfg1.N) : (accDat V c).after 2 t = scrAt V c t.val t.isLt := by dsimp only [accDat]

theorem accDat_before0 (c : Dev nD) (t : Fin cfg1.N) (d) : (accDat V c).before 0 t d = ablk V c 0 t :=
  acc_before0_of V (accDat V c) (accDat_A V c 0) (accDat_after0 V c) t d
theorem accDat_before1 (c : Dev nD) (t : Fin cfg1.N) (d) : (accDat V c).before 1 t d = ablk V c 1 t :=
  acc_before1_of V (accDat V c) (accDat_A V c 1) (accDat_after1 V c) t d

theorem accDat_Phi_castSucc (c : Dev nD) (t : Fin cfg1.N) :
    (accDat V c).Φ t.castSucc = AccInv V c t.val (Nat.le_of_lt t.isLt) := by
  dsimp only [accDat]; simp only [Fin.coe_castSucc]

/-- What the body is called with at point `t`, the windows one by one, -/
def accPre (c : Dev nD) (t : Fin cfg1.N) : sProp 𝕄 :=
  iprop((accDat V c).Φ t.castSucc ∗ (accDat V c).owesAt () t.castSucc
    ∗ (∃ d, owns (c : Thread nD τ) (st1_0 t) fullShare ((accDat V c).before 0 t d))
    ∗ (∃ d, owns (c : Thread nD τ) (st1_1 t) fullShare ((accDat V c).before 1 t d))
    ∗ (∃ d, owns (c : Thread nD τ) (st1_2 t) fullShare ((accDat V c).before 2 t d)))

/-- and what it returns. -/
def accPost (c : Dev nD) (t : Fin cfg1.N) : sProp 𝕄 :=
  iprop((accDat V c).Φ t.succ ∗ (accDat V c).owesAt () t.succ
    ∗ (accDat V c).leavesExact 0 t
    ∗ (accDat V c).leavesExact 1 t
    ∗ (accDat V c).leavesExact 2 t)

set_option maxHeartbeats 4000000 in
/-- The body at any point, by the value of k: the input buffers hold their blocks; the invariant hands the body the
    accumulator (at anything when k = 0, at what the point before left otherwise) and takes it back at this point's
    contents; the output's buffer is handed back untouched unless k = 7, where it takes the accumulator's contents. -/
theorem acc_body (c : Dev nD) (t : Fin cfg1.N) :
    accPre V c t ⊢ wp frame (wpE (defs₀ (F := F)) Variants.none c none) Set.univ (bodyAt1 t) (fun _ => accPost V c t) := by
  unfold accPre accPost bodyAt1
  simp only [accDat_before0, accDat_before1]
  rw [show (accDat V c).owesAt () t.succ = (accDat V c).owesAt () t.castSucc from rfl]
  rw [show (accDat V c).Φ t.succ = AccInv V c (t.val + 1) t.isLt from rfl, AccInv_succ]
  rw [show (accDat V c).leavesExact 0 t = owns (c : Thread nD τ) (st1_0 t) fullShare ((accDat V c).after 0 t) from by
    unfold Dat.leavesExact; rw [live1_0 t], accDat_after0]
  rw [show (accDat V c).leavesExact 1 t = owns (c : Thread nD τ) (st1_1 t) fullShare ((accDat V c).after 1 t) from by
    unfold Dat.leavesExact; rw [live1_1 t], accDat_after1]
  have hN : t.val < 128 := lt_of_lt_of_eq t.isLt (show cfg1.N = 128 from N_1)
  by_cases h0 : t.val % 8 = 0
  · have hl : ¬lastK (grid1.coords t) := fun h => by have := (lastK_iff t).mp h; omega
    rw [Dat.leavesExact_idle (accDat V c) 2 t (idle1_2 t hl) (noflush1_2 t hl), scrAt_first V c t h0, accDat_Phi_castSucc]
    iintro ⟨HΦ, Ho, ⟨%d0, H0⟩, ⟨%d1, H1⟩, ⟨%d2, H2⟩⟩
    ihave HΦ' := (AccInv_any V c t.val (Nat.le_of_lt t.isLt)) $$ HΦ
    icases HΦ' with ⟨Hi, HS, Hg⟩
    iapply (acc_run_first c (grid1.coords t) _ _ _ _ _ _ _ _ ((firstK_iff t).mpr h0) hl (xblk V c t) (wblk V c t) _ Set.univ _)
    isplitl [H0]; · iexact H0
    isplitl [H1]; · iexact H1
    isplitl [H2]; · iexact H2
    isplitl [HS]; · iexact HS
    iintro ⟨H0, H1, H2, HS⟩
    isplitl [Hi HS Hg]
    · isplitl [Hi]; · iexact Hi
      isplitl [HS]; · iexact HS
      iexact Hg
    isplitl [Ho]; · iexact Ho
    isplitl [H0]; · iexact H0
    isplitl [H1]; · iexact H1
    iexists _; iexact H2
  · have hf : ¬firstK (grid1.coords t) := fun h => h0 ((firstK_iff t).mp h)
    have hz : t.val ≠ 0 := fun e => h0 (by rw [e])
    rw [scrAt_next V c t h0, accDat_Phi_castSucc, AccInv_pos V c _ _ hz]
    by_cases h7 : t.val % 8 = 7
    · have hl : lastK (grid1.coords t) := (lastK_iff t).mpr h7
      rw [show (accDat V c).leavesExact 2 t = owns (c : Thread nD τ) (st1_2 t) fullShare ((accDat V c).after 2 t) from by
        unfold Dat.leavesExact; rw [live1_2 t hl], accDat_after2, scrAt_next V c t h0]
      iintro ⟨⟨Hi, HS, Hg⟩, Ho, ⟨%d0, H0⟩, ⟨%d1, H1⟩, ⟨%d2, H2⟩⟩
      iapply (acc_run_last c (grid1.coords t) _ _ _ _ _ _ _ _ hf hl (xblk V c t) (wblk V c t) _ Set.univ _)
      isplitl [H0]; · iexact H0
      isplitl [H1]; · iexact H1
      isplitl [H2]; · iexists _; iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexact H2
    · have hl : ¬lastK (grid1.coords t) := fun h => h7 ((lastK_iff t).mp h)
      rw [Dat.leavesExact_idle (accDat V c) 2 t (idle1_2 t hl) (noflush1_2 t hl)]
      iintro ⟨⟨Hi, HS, Hg⟩, Ho, ⟨%d0, H0⟩, ⟨%d1, H1⟩, ⟨%d2, H2⟩⟩
      iapply (acc_run_mid c (grid1.coords t) _ _ _ _ _ _ _ _ hf hl (xblk V c t) (wblk V c t) _ _ Set.univ _)
      isplitl [H0]; · iexact H0
      isplitl [H1]; · iexact H1
      isplitl [H2]; · iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2

/-- The pipeline library's body obligation for the product call, at every point. -/
theorem acc_obligation (c : Dev nD) : BodyObligation (accDat (F := F) V c) (defs₀ (F := F)) Variants.none () Set.univ := fun t => by
  rw [bigSep_W1, bigSep_W1]
  exact acc_body V c t

/-- What the launch hands the region is the invariant before the first point. -/
theorem acc_hin (c : Dev nD) : (Pipeline.ΦA spec1 c : sProp 𝕄) ⊢ (accDat V c).Φ 0 := by
  rw [show (accDat V c).Φ 0 = AccInv V c 0 (Nat.zero_le _) from rfl, AccInv_zero V c 0 _ rfl]

/-- After the last point the invariant gives back what the launch handed over: the accumulator's contents are forgotten. -/
theorem acc_hout (c : Dev nD) : (accDat V c).Φ (Fin.last cfg1.N) ⊢ (Pipeline.ΦA spec1 c : sProp 𝕄) := by
  rw [show (accDat V c).Φ (Fin.last cfg1.N) = AccInv V c (Fin.last cfg1.N).val (Nat.le_of_lt_succ (Fin.last cfg1.N).isLt) from rfl]
  exact (AccInv_any V c _ _).trans (PhiA_join c)

end Cert.Kernel.Hand

end
-- ==== Proof.Kernel.Run.lean ====
/-
  The run of the expander layer's program — the masking call, then the product call — over the pipeline library's
  several-regions launch: the buffer contents between the items, each call as a region segment, and from the run the
  frame (the arguments end as launched) and the result array named, at any float instance.
-/
import proofs.«170742_j17849884082830_1_alg».proof.Proof.Gen.Kernel.Launch
import proofs.«170742_j17849884082830_1_alg».proof.Proof.Gen.Kernel.Skeleton
import proofs.«170742_j17849884082830_1_alg».proof.Proof.Gen.Kernel.Points
import proofs.«170742_j17849884082830_1_alg».proof.Proof.Kernel.Mask
import proofs.«170742_j17849884082830_1_alg».proof.Proof.Kernel.Acc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The program's run: the masking call, then the product call

@main is the two pallas_calls and nothing else. Between items a TensorCore's unscoped buffers are held whole at a
valuation: the launch memory, then that with the masked weight's array as the masking call's write-backs leave it,
then that with the output array as the product call's write-backs leave it. The run ends with every unscoped buffer at
the last valuation, from which the arguments (never written) and the result are read. -/

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references: what the masking call is entered from. -/
abbrev Vin : (c : Dev nD) → (b : Ref sig .tc) → Buf (Elt F) ((c : Thread nD τ).loc b) := fun c b => W0 m c b

/-- After the masking call: its arrays at what its write-backs leave, every other buffer as launched. -/
def W1 (c : Dev nD) : Valuation τ sig (Elt F) :=
  Pipeline.withArrays spec0 c (W0 m c) fun w => (maskDat (Vin m) c).arrAt w cfg0.N
theorem W1_arr (c : Dev nD) (w : Fin cfg0.W) :
    W1 m c (Proc.devRef .tc (Pipeline.arrRef spec0 w)) = (maskDat (Vin m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the product call is entered from. -/
abbrev Vmid : (c : Dev nD) → (b : Ref sig .tc) → Buf (Elt F) ((c : Thread nD τ).loc b) := fun c b => W1 m c b
theorem mask_exit_arr (c : Dev nD) (w : Fin cfg0.W) : (maskDat (Vin m) c).arrAt w cfg0.N = Vmid m c (Pipeline.arrRef spec0 w) :=
  (W1_arr m c w).symm
theorem mask_exit_rest (c : Dev nD) : ∀ b, b ∉ Finset.univ.image (Pipeline.arrRef spec0) → Vmid m c b = Vin m c b :=
  fun b hb => W1_of_ne m c b fun w e => hb (Finset.mem_image.mpr ⟨w, Finset.mem_univ _, e⟩)

/-- After the product call: its arrays at what its write-backs leave, every other buffer as it was entered. -/
def W2 (c : Dev nD) : Valuation τ sig (Elt F) :=
  Pipeline.withArrays spec1 c (W1 m c) fun w => (accDat (Vmid m) c).arrAt w cfg1.N
theorem W2_arr (c : Dev nD) (w : Fin cfg1.W) :
    W2 m c (Proc.devRef .tc (Pipeline.arrRef spec1 w)) = (accDat (Vmid m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vout : (c : Dev nD) → (b : Ref sig .tc) → Buf (Elt F) ((c : Thread nD τ).loc b) := fun c b => W2 m c b
theorem acc_exit_arr (c : Dev nD) (w : Fin cfg1.W) : (accDat (Vmid m) c).arrAt w cfg1.N = Vout m c (Pipeline.arrRef spec1 w) :=
  (W2_arr m c w).symm
theorem acc_exit_rest (c : Dev nD) : ∀ b, b ∉ Finset.univ.image (Pipeline.arrRef spec1) → Vout m c b = Vmid m c b :=
  fun b hb => W2_of_ne m c b fun w e => hb (Finset.mem_image.mpr ⟨w, Finset.mem_univ _, e⟩)

/-! ## What the last valuation holds at the program's arguments and result -/

/-- The weight is an input of the masking call and bypasses the product call: it ends as launched. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((maskDat (Vin m) c).arrAt_in 0 rfl _).trans (maskDat_A (Vin m) c 0))
    _ = m ((c : Thread nD τ).loc main_arg1) := rfl

/-- So does the mask. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((maskDat (Vin m) c).arrAt_in 1 rfl _).trans (maskDat_A (Vin m) c 1))
    _ = m ((c : Thread nD τ).loc main_arg2) := rfl

/-- x bypasses the masking call and is an input of the product call: it ends as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((accDat (Vmid m) c).arrAt_in 0 rfl _).trans (accDat_A (Vmid m) c 0))
    _ = W0 m c (Proc.devRef .tc main_arg0) := W1_of_ne m c main_arg0 (by decide)
    _ = m ((c : Thread nD τ).loc main_arg0) := rfl

/-- The result is the product call's output array after its write-backs. -/
theorem W2_main_v1 (c : Dev nD) : W2 m c (Proc.devRef .tc main_v1) = (accDat (Vmid m) c).arrAt 2 cfg1.N := W2_arr m c 2

/-- The product call finds, in the masked weight's array, what the masking call's write-backs left. -/
theorem Vmid_main_v0 (c : Dev nD) : Vmid m c main_v0 = (maskDat (Vin m) c).arrAt 2 cfg0.N := W1_arr m c 2
/-- It finds x as launched. -/
theorem Vmid_main_arg0 (c : Dev nD) : Vmid m c main_arg0 = m ((c : Thread nD τ).loc main_arg0) :=
  (W1_of_ne m c main_arg0 (by decide)).trans rfl

/-! ## The proof data family and the thread state -/

/-- No pipeline has a prefetched table. -/
abbrev adm : (p : Fin 2) → (pcfgs (F := F) p).Adm := fun p => (cfgs p).toPCfg_adm
/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => maskDat (Vin m) c
  | ⟨1, _⟩ => fun c => accDat (Vmid m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between items: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The two calls as segments -/

set_option backward.isDefEq.respectTransparency.types false in
/-- The masking call over the thread state: entered with every unscoped buffer at the launch contents, left with them
    at `W1`. Its arrays are split out of the unscoped buffers and put back at their exit contents; the generator
    register goes into the region's invariant and comes back; nothing is owed; the kernel has no semaphore of its own. -/
def maskSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (mask_obligation (Vin m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (Vmid m c) ((pdats m 0 c).arrAt · cfg0.N) (mask_exit_arr m c) (mask_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product call over the thread state: entered with every unscoped buffer at `W1`, left with them at `W2`. As for
    the masking call, except that the region's invariant carries the scratch accumulator from point to point: it
    starts as what the launch hands over and gives that back after the last point (`acc_hin`, `acc_hout`). -/
def accSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (acc_obligation (Vmid m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vmid m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (acc_hin (F := F) (Vmid m) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (acc_hout (F := F) (Vmid m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vmid m c) (Vout m c) ((pdats m 1 c).arrAt · cfg1.N) (acc_exit_arr m c) (acc_exit_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (maskSeg m), .region (accSeg m) ]

theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer of each core holds the last valuation's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

/-- The run with the result named: the output array ends at what the product call's write-backs leave, the arguments
    as launched. -/
theorem run_result : θ_run defs (onTc (τ := τ) (main (F := F))) ⟨m, fun _ => 0, ρ⟩ (fun r => ∀ c : Dev nD,
      r.2.mem ((c.tc : Thread nD τ).loc main_v1) = (accDat (Vmid m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.Kernel.Hand

end
-- ==== Proof.KernelIdeal.Mask.lean ====
/-
  The masking pallas_call of the expander layer (weight ⊙ mask, narrowed to bf16), as a pipeline region: its body's
  run, its proof data and its body obligation, at any float instance.
-/
import proofs.«170742_j17849884082830_1_alg».proof.Proof.Gen.KernelIdeal.Launch
import proofs.«170742_j17849884082830_1_alg».proof.Proof.Gen.KernelIdeal.Skeleton
import proofs.«170742_j17849884082830_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The masking call (pipeline 0): weight ⊙ mask, one 256-row band per grid point

Sixteen grid points; point t fetches rows 256·t … 256·t+255 of the weight and of the mask, multiplies them entry by
entry, narrows the product to bf16 and writes the band back. Everything here is stated at a PARAMETER `V`, the
buffer contents the call is entered from. -/

variable (V : (c : Dev nD) → (b : Ref sig .tc) → Buf (Elt F) ((c : Thread nD τ).loc b))

/-- Band `t` of window `w`'s array, as the call finds the array. -/
def mblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight's staging buffer holds its band at every point: the band is fetched whole at every point. -/
theorem mask_before0_of {c : Dev nD} (dat : Dat τ (Elt F) Unit ℕ (UR sig nD τ) ℕ cfg0 c) (hA : dat.A 0 = V c (Pipeline.arrRef spec0 0))
    (hafter : ∀ t, dat.after 0 t = mblk V c 0 t) (t : Fin cfg0.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)

/-- The same for the mask's staging buffer. -/
theorem mask_before1_of {c : Dev nD} (dat : Dat τ (Elt F) Unit ℕ (UR sig nD τ) ℕ cfg0 c) (hA : dat.A 1 = V c (Pipeline.arrRef spec0 1))
    (hafter : ∀ t, dat.after 1 t = mblk V c 1 t) (t : Fin cfg0.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)

/-- The offsets of the body's whole-buffer accesses are zero. -/
theorem off00 : (![0, 0] : Fin 2 → Nat) = fun _ => 0 := funext fun a => by fin_cases a <;> rfl

/-- The whole 256×4096 band, the one rectangle the body loads and stores through. -/
abbrev bandRect : Rect S256x4096 := Rect.unit (s := S256x4096) ![0, 0] S256x4096.size inb_S256x4096_S256x4096_0_0

/-- The one store through the whole band covers the band. -/
theorem band_cover (p0 : Vec F S256x4096 .bf16) (y : S256x4096.Idx) :
    ∃ pc ∈ ([⟨bandRect, p0⟩] : List (View.Piece (Elt F) S256x4096 .bf16)), y ∈ pc.1.set :=
  ⟨_, List.mem_singleton_self _, View.mem_set_unit_zero off00 inb_S256x4096_S256x4096_0_0 y⟩

set_option maxHeartbeats 1000000 in
/-- The body on whole staging buffers: with the weight band `x0` and the mask band `x1` in its input buffers, it ends
    with both where they were and the output buffer holding the narrowed product `k0_pay1 x0 x1`. -/
theorem mask_kernel_run (c : Dev nD) (E : Set ℕ) (i : grid0.Coords) (arg1 : Memref sig .tc .vmem S256x4096 .f32) (harg1 : arg1.IsWhole)
    (arg2 : Memref sig .tc .vmem S256x4096 .f32) (harg2 : arg2.IsWhole) (arg3 : Memref sig .tc .vmem S256x4096 .bf16) (harg3 : arg3.IsWhole)
    (x0 x1 : Vec F S256x4096 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k0_pay1 x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (band_cover _)).trans ?_
  rw [View.canon_unit_zero off00]
  simp only [View.readAt_eq_ld, View.ld_unit_zero (S := S256x4096) off00]

/-- The proof data of the masking call on core `c`: arrays as found; after the body at point `t` each input buffer still
    holds its band and the output buffer the narrowed product of the two bands; between points the body keeps nothing
    of its own (the scoped rest and the generator register pass through); nothing owed; full shares. -/
def maskDat (c : Dev nD) : Dat τ (Elt F) Unit ℕ (UR sig nD τ) ℕ cfg0 c where
  A w := V c (Pipeline.arrRef spec0 w)
  after w t := match w with
    | ⟨0, _⟩ => mblk V c 0 t
    | ⟨1, _⟩ => mblk V c 1 t
    | ⟨2, _⟩ => k0_pay1 (mblk V c 0 t) (mblk V c 1 t)
  Φ _ := Pipeline.ΦA spec0 c
  q _ := fullShare
  owed _ := 0

theorem maskDat_A (c : Dev nD) (w : Fin cfg0.W) : (maskDat V c).A w = V c (Pipeline.arrRef spec0 w) := by
  dsimp only [maskDat]

theorem maskDat_after0 (c : Dev nD) (t : Fin cfg0.N) : (maskDat V c).after 0 t = mblk V c 0 t := by dsimp only [maskDat]
theorem maskDat_after1 (c : Dev nD) (t : Fin cfg0.N) : (maskDat V c).after 1 t = mblk V c 1 t := by dsimp only [maskDat]
theorem maskDat_after2 (c : Dev nD) (t : Fin cfg0.N) :
    (maskDat V c).after 2 t = k0_pay1 (mblk V c 0 t) (mblk V c 1 t) := by dsimp only [maskDat]

theorem maskDat_before0 (c : Dev nD) (t : Fin cfg0.N) (d) : (maskDat V c).before 0 t d = mblk V c 0 t :=
  mask_before0_of V (maskDat V c) (maskDat_A V c 0) (maskDat_after0 V c) t d
theorem maskDat_before1 (c : Dev nD) (t : Fin cfg0.N) (d) : (maskDat V c).before 1 t d = mblk V c 1 t :=
  mask_before1_of V (maskDat V c) (maskDat_A V c 1) (maskDat_after1 V c) t d

/-- What the body is called with at point `t`, the windows one by one, -/
def maskPre (c : Dev nD) (t : Fin cfg0.N) : sProp 𝕄 :=
  iprop((maskDat V c).Φ t.castSucc ∗ (maskDat V c).owesAt () t.castSucc
    ∗ (∃ d, owns (c : Thread nD τ) (st0_0 t) fullShare ((maskDat V c).before 0 t d))
    ∗ (∃ d, owns (c : Thread nD τ) (st0_1 t) fullShare ((maskDat V c).before 1 t d))
    ∗ (∃ d, owns (c : Thread nD τ) (st0_2 t) fullShare ((maskDat V c).before 2 t d)))

/-- and what it returns. -/
def maskPost (c : Dev nD) (t : Fin cfg0.N) : sProp 𝕄 :=
  iprop((maskDat V c).Φ t.succ ∗ (maskDat V c).owesAt () t.succ
    ∗ owns (c : Thread nD τ) (st0_0 t) fullShare ((maskDat V c).after 0 t)
    ∗ owns (c : Thread nD τ) (st0_1 t) fullShare ((maskDat V c).after 1 t)
    ∗ owns (c : Thread nD τ) (st0_2 t) fullShare ((maskDat V c).after 2 t))

/-- The body at any point: the input buffers hold their bands, so the body's run applies; the invariant and what
    the core owes pass through unread. -/
theorem mask_body (c : Dev nD) (t : Fin cfg0.N) :
    maskPre V c t ⊢ wp frame (wpE (defs₀ (F := F)) Variants.none c none) Set.univ (bodyAt0 t) (fun _ => maskPost V c t) := by
  unfold maskPre maskPost bodyAt0
  simp only [maskDat_before0, maskDat_before1]
  rw [show (maskDat V c).Φ t.succ = (maskDat V c).Φ t.castSucc from rfl,
    show (maskDat V c).owesAt () t.succ = (maskDat V c).owesAt () t.castSucc from rfl,
    maskDat_after0, maskDat_after1, maskDat_after2]
  iintro ⟨HΦ, Ho, ⟨%d0, H0⟩, ⟨%d1, H1⟩, ⟨%d2, H2⟩⟩
  iapply (mask_kernel_run c Set.univ _ _ _ _ _ _ _ (mblk V c 0 t) (mblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation for the masking call, at every point. -/
theorem mask_obligation (c : Dev nD) : BodyObligation (maskDat (F := F) V c) (defs₀ (F := F)) Variants.none () Set.univ := fun t => by
  rw [bigSep_W0, bigSep_W0]
  exact mask_body V c t

end Cert.KernelIdeal.Hand

end
-- ==== Proof.KernelIdeal.Acc.lean ====
/-
  The product pallas_call of the expander layer (x times the masked weight's transpose, summed over eight K-blocks in a
  scratch accumulator), as a pipeline region: its body's run in each of its three cases, what the accumulator holds
  after every grid point, its proof data and its body obligation, at any float instance.
-/
import proofs.«170742_j17849884082830_1_alg».proof.Proof.Gen.KernelIdeal.Launch
import proofs.«170742_j17849884082830_1_alg».proof.Proof.Gen.KernelIdeal.Skeleton
import proofs.«170742_j17849884082830_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The product call (pipeline 1): x · (masked weight)ᵀ, accumulated over eight K-blocks in a scratch buffer

The grid is 8 × 2 × 8, the last axis the reduction: point (i, j, k) fetches the 1024×512 block (i, k) of x and the
2048×512 block (j, k) of the masked weight. At k = 0 the body zeroes a 1024×2048 scratch accumulator; at every point it
adds the block product into it; at k = 7 it copies the accumulator into the output's staging buffer, which the
pipeline then writes back as block (i, j). At the other points the output window is idle. Everything here is stated
at a PARAMETER `V`, the buffer contents the call is entered from. -/

variable (V : (c : Dev nD) → (b : Ref sig .tc) → Buf (Elt F) ((c : Thread nD τ).loc b))

/-- Block `t` of window `w`'s array, as the call finds the array. -/
def ablk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds its block at every point (fetched whole at every point). -/
theorem acc_before0_of {c : Dev nD} (dat : Dat τ (Elt F) Unit ℕ (UR sig nD τ) ℕ cfg1 c) (hA : dat.A 0 = V c (Pipeline.arrRef spec1 0))
    (hafter : ∀ t, dat.after 0 t = ablk V c 0 t) (t : Fin cfg1.N) (d) : dat.before 0 t d = ablk V c 0 t :=
  (dat.before_in_eq_fetched 0 rfl (fun _ => rfl) (fun _ _ _ => rfl) (fun t => by rw [hafter]; unfold Dat.blockOf ablk; rw [hA]; try rfl) t d).trans
    (by unfold Dat.fetched Dat.blockOf ablk; rw [hA]; try rfl)

/-- The same for the masked weight's window. -/
theorem acc_before1_of {c : Dev nD} (dat : Dat τ (Elt F) Unit ℕ (UR sig nD τ) ℕ cfg1 c) (hA : dat.A 1 = V c (Pipeline.arrRef spec1 1))
    (hafter : ∀ t, dat.after 1 t = ablk V c 1 t) (t : Fin cfg1.N) (d) : dat.before 1 t d = ablk V c 1 t :=
  (dat.before_in_eq_fetched 1 rfl (fun _ => rfl) (fun _ _ _ => rfl) (fun t => by rw [hafter]; unfold Dat.blockOf ablk; rw [hA]; try rfl) t d).trans
    (by unfold Dat.fetched Dat.blockOf ablk; rw [hA]; try rfl)

/-- The two input blocks at a point, at their literal types. -/
abbrev xblk (c : Dev nD) (t : Fin cfg1.N) : Vec F S1024x512 .f32 := ablk V c 0 t
abbrev wblk (c : Dev nD) (t : Fin cfg1.N) : Vec F S2048x512 .bf16 := ablk V c 1 t

/-! ## The two conditions, over the grid -/

/-- "k = 0": the accumulator is zeroed. -/
abbrev firstK (i : grid1.Coords) : Prop :=
  (Scalar.cmpi .ne (Scalar.extui (Scalar.cmpi .eq (BitVec.ofNat 32 (i 2).val) 0#32)) 0#32) = 1#1
/-- "k = 7": the accumulator is copied out. -/
abbrev lastK (i : grid1.Coords) : Prop := k1_cond2 i = 1#1

/-- The reduction axis is the fastest: k is the point's number modulo 8. -/
theorem firstK_iff : ∀ t : Fin cfg1.N, firstK (grid1.coords t) ↔ t.val % 8 = 0 :=
  (by decide +kernel : ∀ t : Fin grid1.N, firstK (grid1.coords t) ↔ t.val % 8 = 0)
theorem lastK_iff : ∀ t : Fin cfg1.N, lastK (grid1.coords t) ↔ t.val % 8 = 7 :=
  (by decide +kernel : ∀ t : Fin grid1.N, lastK (grid1.coords t) ↔ t.val % 8 = 7)

/-- The inputs are never idle; the output is idle, and not written back, exactly away from k = 7. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬lastK (grid1.coords t) → cfg1.idle 2 (grid1.coords t) = true := by decide +kernel
theorem noflush1_2 : ∀ t : Fin cfg1.N, ¬lastK (grid1.coords t) → (cfg1.win 2).flush t = false := by decide +kernel
theorem live1_2 : ∀ t : Fin cfg1.N, lastK (grid1.coords t) → cfg1.idle 2 (grid1.coords t) = false := by decide +kernel

/-! ## The body's run, case by case -/

theorem zeroOff : (![0, 0] : Fin 2 → Nat) = fun _ => 0 := funext fun a => by fin_cases a <;> rfl

/-- The whole 1024×2048 buffer, the one rectangle the accumulator and the output are accessed through. -/
abbrev accRect : Rect S1024x2048 := Rect.unit (s := S1024x2048) ![0, 0] S1024x2048.size inb_S1024x2048_S1024x2048_0_0

/-- A list of stores whose LAST one goes through the whole buffer covers the buffer. -/
theorem acc_cover (p0 : Vec F S1024x2048 .f32) (L : List (View.Piece (Elt F) S1024x2048 .f32)) (y : S1024x2048.Idx) :
    ∃ pc ∈ ((⟨accRect, p0⟩ : View.Piece (Elt F) S1024x2048 .f32) :: L), y ∈ pc.1.set :=
  ⟨_, List.mem_cons_self, View.mem_set_unit_zero zeroOff inb_S1024x2048_S1024x2048_0_0 y⟩

set_option maxHeartbeats 2000000 in
/-- k = 0 (and not 7): whatever the accumulator held, it ends at the block product added to zero; the output's
    buffer is handed back untouched. -/
theorem acc_run_first (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : firstK i) (hc1 : ¬lastK i)
    (x : Vec F S1024x512 .f32) (w : Vec F S2048x512 .bf16) (xi : Vec F S1024x2048 .f32) (E : Set ℕ) (K : PUnit → sProp 𝕄) :
    iprop(owns (c : Thread nD τ) arg3 fullShare x ∗ owns (c : Thread nD τ) arg4 fullShare w ∗ owns (c : Thread nD τ) arg5 fullShare xi ∗ (∃ d, owns (c : Thread nD τ) arg6 fullShare d)
        ∗ (iprop(owns (c : Thread nD τ) arg3 fullShare x ∗ owns (c : Thread nD τ) arg4 fullShare w ∗ owns (c : Thread nD τ) arg5 fullShare xi ∗ owns (c : Thread nD τ) arg6 fullShare (k1_pay2 x w (k1_pay1 (F := F)))) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%d6, %f6, -, H6⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  sl_unfold_words
  refine (View.read_writes_eq_canon _ _ _ (acc_cover _ _)).trans ?_
  rw [View.canon_cons_unit_zero zeroOff]
  simp only [View.readAt_eq_ld, View.ld_unit_zero (S := S1024x512) zeroOff, View.ld_unit_zero (S := S2048x512) zeroOff,
    View.ld_unit_zero (S := S1024x2048) zeroOff, View.readCov_unit_zero (S := S1024x2048) _ zeroOff]

set_option maxHeartbeats 2000000 in
/-- 0 < k < 7: the accumulator at `s` ends at `s` plus the block product; the output's buffer is handed back untouched. -/
theorem acc_run_mid (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬firstK i) (hc1 : ¬lastK i)
    (x : Vec F S1024x512 .f32) (w : Vec F S2048x512 .bf16) (xi : Vec F S1024x2048 .f32) (s : Vec F S1024x2048 .f32) (E : Set ℕ) (K : PUnit → sProp 𝕄) :
    iprop(owns (c : Thread nD τ) arg3 fullShare x ∗ owns (c : Thread nD τ) arg4 fullShare w ∗ owns (c : Thread nD τ) arg5 fullShare xi ∗ owns (c : Thread nD τ) arg6 fullShare s
        ∗ (iprop(owns (c : Thread nD τ) arg3 fullShare x ∗ owns (c : Thread nD τ) arg4 fullShare w ∗ owns (c : Thread nD τ) arg5 fullShare xi ∗ owns (c : Thread nD τ) arg6 fullShare (k1_pay2 x w s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%f5, %hf5, H5⟩, ⟨%f6, %hf6, H6⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (acc_cover _ _)).trans ?_
  rw [View.canon_unit_zero zeroOff]
  simp only [View.readAt_eq_ld, View.ld_unit_zero (S := S1024x512) zeroOff, View.ld_unit_zero (S := S2048x512) zeroOff,
    View.ld_unit_zero (S := S1024x2048) zeroOff]

set_option maxHeartbeats 2000000 in
/-- k = 7 (and not 0): the accumulator at `s` ends at `s` plus the block product, and so does the output's buffer. -/
theorem acc_run_last (c : Dev nD) (i : grid1.Coords) (arg3 : Memref sig .tc .vmem S1024x512 .f32) (harg3 : arg3.IsWhole) (arg4 : Memref sig .tc .vmem S2048x512 .bf16) (harg4 : arg4.IsWhole) (arg5 : Memref sig .tc .vmem S1024x2048 .f32) (harg5 : arg5.IsWhole) (arg6 : Memref sig .tc .vmem S1024x2048 .f32) (harg6 : arg6.IsWhole)
    (hc0 : ¬firstK i) (hc1 : lastK i)
    (x : Vec F S1024x512 .f32) (w : Vec F S2048x512 .bf16) (s : Vec F S1024x2048 .f32) (E : Set ℕ) (K : PUnit → sProp 𝕄) :
    iprop(owns (c : Thread nD τ) arg3 fullShare x ∗ owns (c : Thread nD τ) arg4 fullShare w ∗ (∃ d, owns (c : Thread nD τ) arg5 fullShare d) ∗ owns (c : Thread nD τ) arg6 fullShare s
        ∗ (iprop(owns (c : Thread nD τ) arg3 fullShare x ∗ owns (c : Thread nD τ) arg4 fullShare w ∗ owns (c : Thread nD τ) arg5 fullShare (k1_pay2 x w s) ∗ owns (c : Thread nD τ) arg6 fullShare (k1_pay2 x w s)) -∗ K ⟨⟩))
      ⊢ wp frame (wpE (defs₀ (F := F)) Variants.none c none) E (cc1__matmul_kernel i arg3 harg3 arg4 harg4 arg5 harg5 arg6 harg6) K := by
  simp only [cc1__matmul_kernel_eq_skeleton]; unfold cc1__matmul_kernel_skel
  unfold owns
  iintro ⟨⟨%f3, %hf3, H3⟩, ⟨%f4, %hf4, H4⟩, ⟨%d5, %f5, -, H5⟩, ⟨%f6, %hf6, H6⟩, Hk⟩
  subst hf3; subst hf4; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_words
    refine (View.read_writes_eq_canon _ _ _ (acc_cover _ _)).trans ?_
    rw [View.canon_cons_unit_zero zeroOff]
    simp only [View.readAt_eq_ld, View.ld_unit_zero (S := S1024x512) zeroOff, View.ld_unit_zero (S := S2048x512) zeroOff,
      View.ld_unit_zero (S := S1024x2048) zeroOff, View.readCov_unit_zero (S := S1024x2048) _ zeroOff]
  iexists _; isplitr
  swap; · iexact H6
  ipureintro
  sl_unfold_words
  refine (View.read_writes_eq_canon _ _ _ (acc_cover _ _)).trans ?_
  rw [View.canon_cons_unit_zero zeroOff]
  simp only [View.readAt_eq_ld, View.ld_unit_zero (S := S1024x512) zeroOff, View.ld_unit_zero (S := S2048x512) zeroOff,
    View.ld_unit_zero (S := S1024x2048) zeroOff, View.readCov_unit_zero (S := S1024x2048) _ zeroOff]

/-! ## The accumulator, point by point -/

/-- What the scratch accumulator holds after the body at point `n`: at a point with k = 0 the block product added to
    zero, at any other point the block product added to what the point before left. -/
def scrAt (c : Dev nD) : (n : ℕ) → n < cfg1.N → Vec F S1024x2048 .f32
  | 0, hn => k1_pay2 (xblk V c ⟨0, hn⟩) (wblk V c ⟨0, hn⟩) (k1_pay1 (F := F))
  | n + 1, hn =>
    if (n + 1) % 8 = 0 then k1_pay2 (xblk V c ⟨n + 1, hn⟩) (wblk V c ⟨n + 1, hn⟩) (k1_pay1 (F := F))
    else k1_pay2 (xblk V c ⟨n + 1, hn⟩) (wblk V c ⟨n + 1, hn⟩) (scrAt c n (Nat.lt_of_succ_lt hn))

/-- At a point with k = 0 the accumulator restarts. -/
theorem scrAt_first (c : Dev nD) (t : Fin cfg1.N) (h : t.val % 8 = 0) :
    scrAt V c t.val t.isLt = k1_pay2 (xblk V c t) (wblk V c t) (k1_pay1 (F := F)) := by
  obtain ⟨n, hn⟩ := t
  cases n with
  | zero => rfl
  | succ n => exact if_pos h

/-- At any other point it steps from what the point before left. -/
theorem scrAt_next (c : Dev nD) (t : Fin cfg1.N) (h : ¬t.val % 8 = 0) :
    scrAt V c t.val t.isLt
      = k1_pay2 (xblk V c t) (wblk V c t) (scrAt V c (t.val - 1) (Nat.lt_of_le_of_lt (Nat.sub_le _ _) t.isLt)) := by
  obtain ⟨n, hn⟩ := t
  cases n with
  | zero => exact absurd (Nat.zero_mod _) h
  | succ n => exact if_neg h

/-! ## The invariant between points -/

/-- The scratch accumulator, as the body is passed it. -/
abbrev scr : Memref sig .tc .vmem S1024x2048 .f32 := Memref.whole cc1_scratch0

/-- The scoped buffers this call never touches (the masking call's staging buffers), each at some contents. -/
def idleScoped (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- What the launch hands a region with nothing of its own to keep: here, the idle scoped buffers, the accumulator at
    some contents, the generator register at some state. -/
theorem PhiA_split (c : Dev nD) :
    (Pipeline.ΦA spec1 c : sProp 𝕄) ⊢ iprop(idleScoped (F := F) c ∗ (∃ d, owns (c : Thread nD τ) scr fullShare d) ∗ (∃ r, prngReg c r)) := by
  unfold Pipeline.ΦA idleScoped; rw [scopedRest1_eq]; simp only [scr, owns_whole]
  iintro ⟨⟨H0, H1, H2, H3, H4, H5, HS⟩, Hg⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HS]; · iexact HS
  iexact Hg

theorem PhiA_join (c : Dev nD) :
    iprop(idleScoped (F := F) c ∗ (∃ d, owns (c : Thread nD τ) scr fullShare d) ∗ (∃ r, prngReg c r)) ⊢ (Pipeline.ΦA spec1 c : sProp 𝕄) := by
  unfold Pipeline.ΦA idleScoped; rw [scopedRest1_eq]; simp only [scr, owns_whole]
  iintro ⟨⟨H0, H1, H2, H3, H4, H5⟩, HS, Hg⟩
  isplitr [Hg]
  · isplitl [H0]; · iexact H0
    isplitl [H1]; · iexact H1
    isplitl [H2]; · iexact H2
    isplitl [H3]; · iexact H3
    isplitl [H4]; · iexact H4
    isplitl [H5]; · iexact H5
    iexact HS
  iexact Hg

/-- The invariant before position `n`: before the first point what the launch hands over; afterwards the same with
    the accumulator at what the point before left in it. -/
def AccInv (c : Dev nD) : (n : ℕ) → n ≤ cfg1.N → sProp 𝕄
  | 0, _ => Pipeline.ΦA spec1 c
  | n + 1, hn => iprop(idleScoped (F := F) c ∗ owns (c : Thread nD τ) scr fullShare (scrAt V c n hn) ∗ (∃ r, prngReg c r))

theorem AccInv_zero (c : Dev nD) (n : ℕ) (h : n ≤ cfg1.N) (hz : n = 0) : AccInv V c n h = Pipeline.ΦA spec1 c := by
  subst hz; rfl

theorem AccInv_succ (c : Dev nD) (n : ℕ) (hn : n < cfg1.N) :
    AccInv V c (n + 1) hn = iprop(idleScoped (F := F) c ∗ owns (c : Thread nD τ) scr fullShare (scrAt V c n hn) ∗ (∃ r, prngReg c r)) := rfl

theorem AccInv_pos (c : Dev nD) (n : ℕ) (h : n ≤ cfg1.N) (hz : n ≠ 0) :
    AccInv V c n h = iprop(idleScoped (F := F) c ∗ owns (c : Thread nD τ) scr fullShare (scrAt V c (n - 1) (by omega)) ∗ (∃ r, prngReg c r)) := by
  cases n with
  | zero => exact absurd rfl hz
  | succ n => rfl

/-- Whatever the position, the invariant holds the accumulator at SOME contents. -/
theorem AccInv_any (c : Dev nD) (n : ℕ) (h : n ≤ cfg1.N) :
    AccInv V c n h ⊢ iprop(idleScoped (F := F) c ∗ (∃ d, owns (c : Thread nD τ) scr fullShare d) ∗ (∃ r, prngReg c r)) := by
  cases n with
  | zero => exact PhiA_split c
  | succ n =>
    rw [AccInv_succ]
    iintro ⟨Hi, HS, Hg⟩
    isplitl [Hi]; · iexact Hi
    isplitl [HS]; · iexists _; iexact HS
    iexact Hg

/-! ## The proof data and the body obligation -/

/-- The proof data of the product call on core `c`: arrays as found; after the body at point `t` each input buffer still
    holds its block, and the output buffer (where it is not idle) the accumulator's contents; the invariant carries the
    accumulator from point to point; nothing owed; full shares. -/
def accDat (c : Dev nD) : Dat τ (Elt F) Unit ℕ (UR sig nD τ) ℕ cfg1 c where
  A w := V c (Pipeline.arrRef spec1 w)
  after w t := match w with
    | ⟨0, _⟩ => ablk V c 0 t
    | ⟨1, _⟩ => ablk V c 1 t
    | ⟨2, _⟩ => scrAt V c t.val t.isLt
  Φ t := AccInv V c t.val (Nat.le_of_lt_succ t.isLt)
  q _ := fullShare
  owed _ := 0

theorem accDat_A (c : Dev nD) (w : Fin cfg1.W) : (accDat V c).A w = V c (Pipeline.arrRef spec1 w) := by
  dsimp only [accDat]

theorem accDat_after0 (c : Dev nD) (t : Fin cfg1.N) : (accDat V c).after 0 t = ablk V c 0 t := by dsimp only [accDat]
theorem accDat_after1 (c : Dev nD) (t : Fin cfg1.N) : (accDat V c).after 1 t = ablk V c 1 t := by dsimp only [accDat]
theorem accDat_after2 (c : Dev nD) (t : Fin cfg1.N) : (accDat V c).after 2 t = scrAt V c t.val t.isLt := by dsimp only [accDat]

theorem accDat_before0 (c : Dev nD) (t : Fin cfg1.N) (d) : (accDat V c).before 0 t d = ablk V c 0 t :=
  acc_before0_of V (accDat V c) (accDat_A V c 0) (accDat_after0 V c) t d
theorem accDat_before1 (c : Dev nD) (t : Fin cfg1.N) (d) : (accDat V c).before 1 t d = ablk V c 1 t :=
  acc_before1_of V (accDat V c) (accDat_A V c 1) (accDat_after1 V c) t d

theorem accDat_Phi_castSucc (c : Dev nD) (t : Fin cfg1.N) :
    (accDat V c).Φ t.castSucc = AccInv V c t.val (Nat.le_of_lt t.isLt) := by
  dsimp only [accDat]; simp only [Fin.coe_castSucc]

/-- What the body is called with at point `t`, the windows one by one, -/
def accPre (c : Dev nD) (t : Fin cfg1.N) : sProp 𝕄 :=
  iprop((accDat V c).Φ t.castSucc ∗ (accDat V c).owesAt () t.castSucc
    ∗ (∃ d, owns (c : Thread nD τ) (st1_0 t) fullShare ((accDat V c).before 0 t d))
    ∗ (∃ d, owns (c : Thread nD τ) (st1_1 t) fullShare ((accDat V c).before 1 t d))
    ∗ (∃ d, owns (c : Thread nD τ) (st1_2 t) fullShare ((accDat V c).before 2 t d)))

/-- and what it returns. -/
def accPost (c : Dev nD) (t : Fin cfg1.N) : sProp 𝕄 :=
  iprop((accDat V c).Φ t.succ ∗ (accDat V c).owesAt () t.succ
    ∗ (accDat V c).leavesExact 0 t
    ∗ (accDat V c).leavesExact 1 t
    ∗ (accDat V c).leavesExact 2 t)

set_option maxHeartbeats 4000000 in
/-- The body at any point, by the value of k: the input buffers hold their blocks; the invariant hands the body the
    accumulator (at anything when k = 0, at what the point before left otherwise) and takes it back at this point's
    contents; the output's buffer is handed back untouched unless k = 7, where it takes the accumulator's contents. -/
theorem acc_body (c : Dev nD) (t : Fin cfg1.N) :
    accPre V c t ⊢ wp frame (wpE (defs₀ (F := F)) Variants.none c none) Set.univ (bodyAt1 t) (fun _ => accPost V c t) := by
  unfold accPre accPost bodyAt1
  simp only [accDat_before0, accDat_before1]
  rw [show (accDat V c).owesAt () t.succ = (accDat V c).owesAt () t.castSucc from rfl]
  rw [show (accDat V c).Φ t.succ = AccInv V c (t.val + 1) t.isLt from rfl, AccInv_succ]
  rw [show (accDat V c).leavesExact 0 t = owns (c : Thread nD τ) (st1_0 t) fullShare ((accDat V c).after 0 t) from by
    unfold Dat.leavesExact; rw [live1_0 t], accDat_after0]
  rw [show (accDat V c).leavesExact 1 t = owns (c : Thread nD τ) (st1_1 t) fullShare ((accDat V c).after 1 t) from by
    unfold Dat.leavesExact; rw [live1_1 t], accDat_after1]
  have hN : t.val < 128 := lt_of_lt_of_eq t.isLt (show cfg1.N = 128 from N_1)
  by_cases h0 : t.val % 8 = 0
  · have hl : ¬lastK (grid1.coords t) := fun h => by have := (lastK_iff t).mp h; omega
    rw [Dat.leavesExact_idle (accDat V c) 2 t (idle1_2 t hl) (noflush1_2 t hl), scrAt_first V c t h0, accDat_Phi_castSucc]
    iintro ⟨HΦ, Ho, ⟨%d0, H0⟩, ⟨%d1, H1⟩, ⟨%d2, H2⟩⟩
    ihave HΦ' := (AccInv_any V c t.val (Nat.le_of_lt t.isLt)) $$ HΦ
    icases HΦ' with ⟨Hi, HS, Hg⟩
    iapply (acc_run_first c (grid1.coords t) _ _ _ _ _ _ _ _ ((firstK_iff t).mpr h0) hl (xblk V c t) (wblk V c t) _ Set.univ _)
    isplitl [H0]; · iexact H0
    isplitl [H1]; · iexact H1
    isplitl [H2]; · iexact H2
    isplitl [HS]; · iexact HS
    iintro ⟨H0, H1, H2, HS⟩
    isplitl [Hi HS Hg]
    · isplitl [Hi]; · iexact Hi
      isplitl [HS]; · iexact HS
      iexact Hg
    isplitl [Ho]; · iexact Ho
    isplitl [H0]; · iexact H0
    isplitl [H1]; · iexact H1
    iexists _; iexact H2
  · have hf : ¬firstK (grid1.coords t) := fun h => h0 ((firstK_iff t).mp h)
    have hz : t.val ≠ 0 := fun e => h0 (by rw [e])
    rw [scrAt_next V c t h0, accDat_Phi_castSucc, AccInv_pos V c _ _ hz]
    by_cases h7 : t.val % 8 = 7
    · have hl : lastK (grid1.coords t) := (lastK_iff t).mpr h7
      rw [show (accDat V c).leavesExact 2 t = owns (c : Thread nD τ) (st1_2 t) fullShare ((accDat V c).after 2 t) from by
        unfold Dat.leavesExact; rw [live1_2 t hl], accDat_after2, scrAt_next V c t h0]
      iintro ⟨⟨Hi, HS, Hg⟩, Ho, ⟨%d0, H0⟩, ⟨%d1, H1⟩, ⟨%d2, H2⟩⟩
      iapply (acc_run_last c (grid1.coords t) _ _ _ _ _ _ _ _ hf hl (xblk V c t) (wblk V c t) _ Set.univ _)
      isplitl [H0]; · iexact H0
      isplitl [H1]; · iexact H1
      isplitl [H2]; · iexists _; iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexact H2
    · have hl : ¬lastK (grid1.coords t) := fun h => h7 ((lastK_iff t).mp h)
      rw [Dat.leavesExact_idle (accDat V c) 2 t (idle1_2 t hl) (noflush1_2 t hl)]
      iintro ⟨⟨Hi, HS, Hg⟩, Ho, ⟨%d0, H0⟩, ⟨%d1, H1⟩, ⟨%d2, H2⟩⟩
      iapply (acc_run_mid c (grid1.coords t) _ _ _ _ _ _ _ _ hf hl (xblk V c t) (wblk V c t) _ _ Set.univ _)
      isplitl [H0]; · iexact H0
      isplitl [H1]; · iexact H1
      isplitl [H2]; · iexact H2
      isplitl [HS]; · iexact HS
      iintro ⟨H0, H1, H2, HS⟩
      isplitl [Hi HS Hg]
      · isplitl [Hi]; · iexact Hi
        isplitl [HS]; · iexact HS
        iexact Hg
      isplitl [Ho]; · iexact Ho
      isplitl [H0]; · iexact H0
      isplitl [H1]; · iexact H1
      iexists _; iexact H2

/-- The pipeline library's body obligation for the product call, at every point. -/
theorem acc_obligation (c : Dev nD) : BodyObligation (accDat (F := F) V c) (defs₀ (F := F)) Variants.none () Set.univ := fun t => by
  rw [bigSep_W1, bigSep_W1]
  exact acc_body V c t

/-- What the launch hands the region is the invariant before the first point. -/
theorem acc_hin (c : Dev nD) : (Pipeline.ΦA spec1 c : sProp 𝕄) ⊢ (accDat V c).Φ 0 := by
  rw [show (accDat V c).Φ 0 = AccInv V c 0 (Nat.zero_le _) from rfl, AccInv_zero V c 0 _ rfl]

/-- After the last point the invariant gives back what the launch handed over: the accumulator's contents are forgotten. -/
theorem acc_hout (c : Dev nD) : (accDat V c).Φ (Fin.last cfg1.N) ⊢ (Pipeline.ΦA spec1 c : sProp 𝕄) := by
  rw [show (accDat V c).Φ (Fin.last cfg1.N) = AccInv V c (Fin.last cfg1.N).val (Nat.le_of_lt_succ (Fin.last cfg1.N).isLt) from rfl]
  exact (AccInv_any V c _ _).trans (PhiA_join c)

end Cert.KernelIdeal.Hand

end
-- ==== Proof.KernelIdeal.Run.lean ====
/-
  The run of the expander layer's program — the masking call, then the product call — over the pipeline library's
  several-regions launch: the buffer contents between the items, each call as a region segment, and from the run the
  frame (the arguments end as launched) and the result array named, at any float instance.
-/
import proofs.«170742_j17849884082830_1_alg».proof.Proof.Gen.KernelIdeal.Launch
import proofs.«170742_j17849884082830_1_alg».proof.Proof.Gen.KernelIdeal.Skeleton
import proofs.«170742_j17849884082830_1_alg».proof.Proof.Gen.KernelIdeal.Points
import proofs.«170742_j17849884082830_1_alg».proof.Proof.KernelIdeal.Mask
import proofs.«170742_j17849884082830_1_alg».proof.Proof.KernelIdeal.Acc
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The program's run: the masking call, then the product call

@main is the two pallas_calls and nothing else. Between items a TensorCore's unscoped buffers are held whole at a
valuation: the launch memory, then that with the masked weight's array as the masking call's write-backs leave it,
then that with the output array as the product call's write-backs leave it. The run ends with every unscoped buffer at
the last valuation, from which the arguments (never written) and the result are read. -/

variable (m : (ℓ : Loc nD τ sig) → Buf (Elt F) ℓ) (ρ : Dev nD → PrngReg)

/-- Core `c`'s buffers at launch. -/
abbrev W0 : Dev nD → Valuation τ sig (Elt F) := fun c b => m (c, b)
/-- The same read at the TensorCore's references: what the masking call is entered from. -/
abbrev Vin : (c : Dev nD) → (b : Ref sig .tc) → Buf (Elt F) ((c : Thread nD τ).loc b) := fun c b => W0 m c b

/-- After the masking call: its arrays at what its write-backs leave, every other buffer as launched. -/
def W1 (c : Dev nD) : Valuation τ sig (Elt F) :=
  Pipeline.withArrays spec0 c (W0 m c) fun w => (maskDat (Vin m) c).arrAt w cfg0.N
theorem W1_arr (c : Dev nD) (w : Fin cfg0.W) :
    W1 m c (Proc.devRef .tc (Pipeline.arrRef spec0 w)) = (maskDat (Vin m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the product call is entered from. -/
abbrev Vmid : (c : Dev nD) → (b : Ref sig .tc) → Buf (Elt F) ((c : Thread nD τ).loc b) := fun c b => W1 m c b
theorem mask_exit_arr (c : Dev nD) (w : Fin cfg0.W) : (maskDat (Vin m) c).arrAt w cfg0.N = Vmid m c (Pipeline.arrRef spec0 w) :=
  (W1_arr m c w).symm
theorem mask_exit_rest (c : Dev nD) : ∀ b, b ∉ Finset.univ.image (Pipeline.arrRef spec0) → Vmid m c b = Vin m c b :=
  fun b hb => W1_of_ne m c b fun w e => hb (Finset.mem_image.mpr ⟨w, Finset.mem_univ _, e⟩)

/-- After the product call: its arrays at what its write-backs leave, every other buffer as it was entered. -/
def W2 (c : Dev nD) : Valuation τ sig (Elt F) :=
  Pipeline.withArrays spec1 c (W1 m c) fun w => (accDat (Vmid m) c).arrAt w cfg1.N
theorem W2_arr (c : Dev nD) (w : Fin cfg1.W) :
    W2 m c (Proc.devRef .tc (Pipeline.arrRef spec1 w)) = (accDat (Vmid m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev Vout : (c : Dev nD) → (b : Ref sig .tc) → Buf (Elt F) ((c : Thread nD τ).loc b) := fun c b => W2 m c b
theorem acc_exit_arr (c : Dev nD) (w : Fin cfg1.W) : (accDat (Vmid m) c).arrAt w cfg1.N = Vout m c (Pipeline.arrRef spec1 w) :=
  (W2_arr m c w).symm
theorem acc_exit_rest (c : Dev nD) : ∀ b, b ∉ Finset.univ.image (Pipeline.arrRef spec1) → Vout m c b = Vmid m c b :=
  fun b hb => W2_of_ne m c b fun w e => hb (Finset.mem_image.mpr ⟨w, Finset.mem_univ _, e⟩)

/-! ## What the last valuation holds at the program's arguments and result -/

/-- The weight is an input of the masking call and bypasses the product call: it ends as launched. -/
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 0).trans (((maskDat (Vin m) c).arrAt_in 0 rfl _).trans (maskDat_A (Vin m) c 0))
    _ = m ((c : Thread nD τ).loc main_arg1) := rfl

/-- So does the mask. -/
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 1).trans (((maskDat (Vin m) c).arrAt_in 1 rfl _).trans (maskDat_A (Vin m) c 1))
    _ = m ((c : Thread nD τ).loc main_arg2) := rfl

/-- x bypasses the masking call and is an input of the product call: it ends as launched. -/
theorem W2_main_arg0 (c : Dev nD) : W2 m c (Proc.devRef .tc main_arg0) = m ((c : Thread nD τ).loc main_arg0) :=
  calc W2 m c (Proc.devRef .tc main_arg0)
    _ = W1 m c (Proc.devRef .tc main_arg0) := (W2_arr m c 0).trans (((accDat (Vmid m) c).arrAt_in 0 rfl _).trans (accDat_A (Vmid m) c 0))
    _ = W0 m c (Proc.devRef .tc main_arg0) := W1_of_ne m c main_arg0 (by decide)
    _ = m ((c : Thread nD τ).loc main_arg0) := rfl

/-- The result is the product call's output array after its write-backs. -/
theorem W2_main_v1 (c : Dev nD) : W2 m c (Proc.devRef .tc main_v1) = (accDat (Vmid m) c).arrAt 2 cfg1.N := W2_arr m c 2

/-- The product call finds, in the masked weight's array, what the masking call's write-backs left. -/
theorem Vmid_main_v0 (c : Dev nD) : Vmid m c main_v0 = (maskDat (Vin m) c).arrAt 2 cfg0.N := W1_arr m c 2
/-- It finds x as launched. -/
theorem Vmid_main_arg0 (c : Dev nD) : Vmid m c main_arg0 = m ((c : Thread nD τ).loc main_arg0) :=
  (W1_of_ne m c main_arg0 (by decide)).trans rfl

/-! ## The proof data family and the thread state -/

/-- No pipeline has a prefetched table. -/
abbrev adm : (p : Fin 2) → (pcfgs (F := F) p).Adm := fun p => (cfgs p).toPCfg_adm
/-- Each pipeline's proof data at its call's entry contents. -/
def pdats : (p : Fin 2) → (c : Dev nD) → Dat τ (Elt F) Unit ℕ (UR sig nD τ) ℕ (Pipeline.pin (pcfgs (F := F)) adm p) c
  | ⟨0, _⟩ => fun c => maskDat (Vin m) c
  | ⟨1, _⟩ => fun c => accDat (Vmid m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers between items: the generator register at some state, and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The two calls as segments -/

set_option backward.isDefEq.respectTransparency.types false in
/-- The masking call over the thread state: entered with every unscoped buffer at the launch contents, left with them
    at `W1`. Its arrays are split out of the unscoped buffers and put back at their exit contents; the generator
    register goes into the region's invariant and comes back; nothing is owed; the kernel has no semaphore of its own. -/
def maskSeg : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (mask_obligation (Vin m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (Vmid m c) ((pdats m 0 c).arrAt · cfg0.N) (mask_exit_arr m c) (mask_exit_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The product call over the thread state: entered with every unscoped buffer at `W1`, left with them at `W2`. As for
    the masking call, except that the region's invariant carries the scratch accumulator from point to point: it
    starts as what the launch hands over and gives that back after the last point (`acc_hin`, `acc_hout`). -/
def accSeg : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (acc_obligation (Vmid m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vmid m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (acc_hin (F := F) (Vmid m) c)
  hout c := by
    rw [Pipeline.ownSems0_none]
    have h : (Pipeline.ΦA spec1 c : sProp 𝕄) ⊢ iprop((∃ r, prngReg c r) ∗ BI.emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (acc_hout (F := F) (Vmid m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vmid m c) (Vout m c) ((pdats m 1 c).arrAt · cfg1.N) (acc_exit_arr m c) (acc_exit_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (maskSeg m), .region (accSeg m) ]

theorem main_run (c : Dev nD) : main (F := F) c = Pipeline.Seg.run (segs m) := (main_chain c).trans (by chain_rfl)

set_option backward.isDefEq.respectTransparency.types false in
/-- THE RUN. From any memory with zero counters, every weakly fair execution of @main on the TensorCores terminates,
    nothing faulting, and in every final state each unscoped buffer of each core holds the last valuation's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

/-- The run with the result named: the output array ends at what the product call's write-backs leave, the arguments
    as launched. -/
theorem run_result : θ_run defs (onTc (τ := τ) (main (F := F))) ⟨m, fun _ => 0, ρ⟩ (fun r => ∀ c : Dev nD,
      r.2.mem ((c.tc : Thread nD τ).loc main_v1) = (accDat (Vmid m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W2_main_v1 m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_main m ρ)

end Cert.KernelIdeal.Hand

end
-- ==== Proof.Spec.lean ====
/-
  The expander layer's mathematics, over the extended reals.

  `out = x · (weight ⊙ mask)ᵀ`: entry (r, c) of the result is the sum over k of x(r, k) · (weight(c, k) · mask(c, k)).
  Both programs compute it in two steps — the masked weight, entry by entry, and then the product against its
  transpose — and they differ only in how the sum over k is grouped: the reference takes it whole, the kernel in eight
  consecutive runs of 512 added up from zero. Addition of extended reals is commutative and associative, so the two
  groupings agree whatever the entries (no finiteness is used).
-/
import Mathlib.Data.EReal.Basic
import Mathlib.Algebra.BigOperators.Fin
import Idealize.ShloMosaic.Lib.ValueIdx

noncomputable section

namespace Cert.Spec

open Idealize.ShloMosaic Idealize.ShloMosaic.ValueIdx

abbrev SW : Shape := ⟨2, ![4096, 4096]⟩
abbrev SX : Shape := ⟨2, ![8192, 4096]⟩

/-- The masked weight: entry by entry the product of the weight and the mask. -/
def maskedW (w mk : SW.Idx → EReal) : SW.Idx → EReal := fun i => w i * mk i

/-- `x · mwᵀ`: entry (r, c) is the sum over k of x(r, k) · mw(c, k). -/
def prodT (x : SX.Idx → EReal) (mw : SW.Idx → EReal) : SX.Idx → EReal :=
  fun i => ∑ k : Fin 4096, x (ix2 (⟨(i 0).val, (i 0).isLt⟩ : Fin 8192) k) * mw (ix2 (⟨(i 1).val, (i 1).isLt⟩ : Fin 4096) k)

theorem prodT_apply (x : SX.Idx → EReal) (mw : SW.Idx → EReal) (r : Fin 8192) (c : Fin 4096) :
    prodT x mw (ix2 r c) = ∑ k : Fin 4096, x (ix2 r k) * mw (ix2 c k) := rfl

/-- A sum over 4096 consecutive indices is the sum of its eight consecutive runs of 512. -/
theorem sum_runs (f : ℕ → EReal) :
    ∑ s ∈ Finset.range 8, ∑ k : Fin 512, f (512 * s + k.val) = ∑ K : Fin 4096, f K.val := by
  rw [Finset.sum_range (fun s => ∑ k : Fin 512, f (512 * s + k.val))]
  show _ = ∑ K : Fin (8 * 512), f K.val
  rw [← Equiv.sum_comp (finProdFinEquiv (m := 8) (n := 512)) (fun K : Fin (8 * 512) => f K.val), Fintype.sum_prod_type]
  refine Finset.sum_congr rfl fun i _ => Finset.sum_congr rfl fun k _ => ?_
  refine congrArg f ?_
  show 512 * i.val + k.val = k.val + 512 * i.val
  omega

end Cert.Spec

end
-- ==== Proof.KernelIdeal.MaskValue.lean ====
/-
  What the masking call leaves in the masked weight's array: entry by entry the product of the weight and the mask
  as the call found them. Point t writes back rows 256·t … 256·t+255, each entry the product of the two input bands'
  entries at the same place; the sixteen bands tile the array.
-/
import proofs.«170742_j17849884082830_1_alg».proof.Proof.KernelIdeal.Mask
import proofs.«170742_j17849884082830_1_alg».proof.Proof.Spec
import Idealize.ShloMosaic.PureOps.Ideal.Laws
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen Cert.Spec

variable (V : (c : Dev nD) → (b : Ref sig .tc) → Buf (Elt Ideal) ((c : Thread nD τ).loc b))

/-- The weight and the mask as the call finds them, at their literal type. -/
abbrev wArr (c : Dev nD) : SW.Idx → EReal := V c main_arg1
abbrev mArr (c : Dev nD) : SW.Idx → EReal := V c main_arg2

/-- All three windows of the masking call sit at band t, column block 0, at point t. -/
theorem mask_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is band `t` of the entrywise product of the two arrays. -/
theorem mask_flushed (c : Dev nD) (t : Fin cfg0.N) :
    (maskDat V c).flushed 2 t = ((cfg0.win 2).blk t).view.read (Elt Ideal) (maskedW (V c main_arg1) (V c main_arg2)) := by
  show (cfg0.win 2).cut (grid0.coords t) ((maskDat V c).after 2 t) = _
  rw [maskDat_after2]
  obtain ⟨e0, e1, e2, e3, e4, e5⟩ := mask_idx t
  funext j
  show wArr V c (((cfg0.win 0).blk t).view.emb j) * mArr V c (((cfg0.win 1).blk t).view.emb j)
    = wArr V c (((cfg0.win 2).blk t).view.emb j) * mArr V c (((cfg0.win 2).blk t).view.emb j)
  have h0 : ((cfg0.win 0).blk t).view.emb j = ((cfg0.win 2).blk t).view.emb j := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 4096 + 1 * (j 1).val = win0_2.index t (1 : Fin 2) * 4096 + 1 * (j 1).val; omega
  have h1 : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 4096 + 1 * (j 1).val = win0_2.index t (1 : Fin 2) * 4096 + 1 * (j 1).val; omega
  rw [h0, h1]

/-- An entry of the array is in band `t` iff each coordinate is in the band's range. -/
theorem mask_mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v0).slice (win0_2.rect t)).set ↔ _
  rw [View.set_slice_whole, Rect.mem_set_unit]
  exact Iff.rfl

/-- Row r lies in band r / 256, which is written back. -/
theorem mask_cover (i : S4096x4096.Idx) : ∃ t : Fin cfg0.N, (cfg0.win 2).flush t = true ∧ i ∈ ((cfg0.win 2).blk t).view.set := by
  have hi0 : (i 0).val < 4096 := (i 0).isLt
  have hi1 : (i 1).val < 4096 := (i 1).isLt
  refine ⟨⟨(i 0).val / 256, by rw [show cfg0.N = 16 from N_0]; omega⟩, flush0_2 _, ?_⟩
  rw [mask_mem_blk]
  obtain ⟨e0, e1, e2, e3, e4, e5⟩ := mask_idx ⟨(i 0).val / 256, by rw [show cfg0.N = 16 from N_0]; omega⟩
  intro a
  match a with
  | ⟨0, _⟩ => show win0_2.index _ (0 : Fin 2) * 256 ≤ (i 0).val ∧ (i 0).val < win0_2.index _ (0 : Fin 2) * 256 + 256; rw [e4]; dsimp only; omega
  | ⟨1, _⟩ => show win0_2.index _ (1 : Fin 2) * 4096 ≤ (i 1).val ∧ (i 1).val < win0_2.index _ (1 : Fin 2) * 4096 + 4096; rw [e5]; omega

/-- THE MASKED WEIGHT after the call: the entrywise product of the weight and the mask as the call found them. -/
theorem mask_final (c : Dev nD) : (maskDat V c).arrAt 2 cfg0.N = maskedW (V c main_arg1) (V c main_arg2) :=
  (maskDat V c).arrAt_eq_of_cover 2 (maskedW (V c main_arg1) (V c main_arg2)) (fun t _ => mask_flushed V c t) mask_cover

end Cert.KernelIdeal.Hand

end
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.KernelIdeal.Payload.lean ====
/-
  The product call's two payloads read at an entry, over the extended reals: the zeroing payload is 0 everywhere, and
  the accumulation payload at (p, q) is the accumulator there plus the sum over the block's 512 columns of
  x(p, k) · w(q, k) — the narrowing to bf16 is the identity, the transpose swaps the two coordinates, the matrix
  product into the zero accumulator is its textbook sum.
-/
import proofs.«170742_j17849884082830_1_alg».proof.Proof.Gen.KernelIdeal.Skeleton
import proofs.«170742_j17849884082830_1_alg».proof.Proof.LibRowwise
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.ValueIdx Cert.KernelIdeal Cert.KernelIdeal.Gen Cert.Lib.Rowwise

/-- The zeroing payload is zero at every entry. -/
theorem pay1_apply (j : S1024x2048.Idx) : k1_pay1 (F := Ideal) j = 0 := by
  unfold k1_pay1
  rw [shapeCast_self]
  show Ideal.ofBits .f32 0x00000000#32 = 0
  exact Ideal.ofBits_zero_f32

/-- The masked weight's block, transposed, at (k, q) is the block at (q, k). -/
theorem wT_apply (w : Vec Ideal S2048x512 .bf16) (k : Fin 512) (q : Fin 2048) :
    transpose S512x2048 [1, 0] (shapeCast S2048x512 w shapeCasts_S2048x512_S2048x512) transposes_S2048x512_p1_0_S512x2048 (ix2 k q)
      = w (ix2 q k) := by
  rw [shapeCast_self]
  exact transpose_apply [1, 0] w transposes_S2048x512_p1_0_S512x2048 (ix2 k q) (ix2 q k) (fun b => match b with
    | ⟨0, _⟩ => rfl
    | ⟨1, _⟩ => rfl)

/-- The accumulation payload at (p, q): the accumulator there plus the block product's entry. -/
theorem pay2_apply (x : Vec Ideal S1024x512 .f32) (w : Vec Ideal S2048x512 .bf16) (s : Vec Ideal S1024x2048 .f32) (p : Fin 1024) (q : Fin 2048) :
    k1_pay2 x w s (ix2 p q) = s (ix2 p q) + ∑ k : Fin 512, x (ix2 p k) * w (ix2 q k) := by
  unfold k1_pay2
  rw [shapeCast_self]
  show s (ix2 p q) + _ = _
  refine congrArg (s (ix2 p q) + ·) ?_
  rw [eq_plain dot_S1024x512_S512x2048_S1024x2048_1_0_0_1_n_n rfl rfl rfl rfl rfl rfl]
  refine (plain_matmul_zero_apply none _ _ p q).trans ?_
  refine Finset.sum_congr rfl fun k _ => ?_
  rw [wT_apply]
  rfl

end Cert.KernelIdeal.Payload

end
-- ==== Proof.KernelIdeal.AccValue.lean ====
/-
  What the product call leaves in the output array: entry (r, c) is the sum over all 4096 columns k of
  x(r, k) · mw(c, k), for x and the masked weight mw as the call found them.

  Point t = 16·i + 8·j + k₀ works on block (i, k₀) of x and block (j, k₀) of mw; the accumulator restarts at k₀ = 0
  and at k₀ = 7 holds, at (p, q), zero plus the eight block terms ∑_{k<512} x(1024 i + p, 512 s + k) · mw(2048 j + q, 512 s + k),
  s = 0 … 7: the eight consecutive runs of the one sum over k < 4096. That is what is written back as block (i, j).
-/
import proofs.«170742_j17849884082830_1_alg».proof.Proof.KernelIdeal.Acc
import proofs.«170742_j17849884082830_1_alg».proof.Proof.KernelIdeal.Payload
import proofs.«170742_j17849884082830_1_alg».proof.Proof.Spec
import Idealize.ShloMosaic.PureOps.Ideal.Laws
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal.Gen Cert.KernelIdeal.Payload Cert.Spec

variable (V : (c : Dev nD) → (b : Ref sig .tc) → Buf (Elt Ideal) ((c : Thread nD τ).loc b))

/-- An 8192×4096 array read at natural-number coordinates (zero outside). -/
def xAt (a : SX.Idx → EReal) (r k : ℕ) : EReal := if h : r < 8192 ∧ k < 4096 then a (ix2 ⟨r, h.1⟩ ⟨k, h.2⟩) else 0
/-- A 4096×4096 array read at natural-number coordinates (zero outside). -/
def wAt (a : SW.Idx → EReal) (r k : ℕ) : EReal := if h : r < 4096 ∧ k < 4096 then a (ix2 ⟨r, h.1⟩ ⟨k, h.2⟩) else 0

/-- Where the three windows sit at point t = 16·i + 8·j + k₀: x at block (i, k₀), mw at (j, k₀), the output at (i, j). -/
theorem acc_idx : ∀ t : Fin cfg1.N, win1_0.index t (0 : Fin 2) = t.val / 16 ∧ win1_0.index t (1 : Fin 2) = t.val % 8
    ∧ win1_1.index t (0 : Fin 2) = t.val / 8 % 2 ∧ win1_1.index t (1 : Fin 2) = t.val % 8
    ∧ win1_2.index t (0 : Fin 2) = t.val / 16 ∧ win1_2.index t (1 : Fin 2) = t.val / 8 % 2 :=
  (by decide +kernel : ∀ t : Fin grid1.N, _)

/-- x's block at a point, read at (p, k). -/
theorem xblk_apply (c : Dev nD) (t : Fin cfg1.N) (p : Fin 1024) (k : Fin 512) :
    xblk V c t (ix2 p k) = xAt (V c main_arg0) (1024 * (t.val / 16) + p.val) (512 * (t.val % 8) + k.val) := by
  have hN : t.val < 128 := lt_of_lt_of_eq t.isLt (show cfg1.N = 128 from N_1)
  obtain ⟨e0, e1, e2, e3, e4, e5⟩ := acc_idx t
  have hr : 1024 * (t.val / 16) + p.val < 8192 ∧ 512 * (t.val % 8) + k.val < 4096 := by omega
  unfold xAt; rw [dif_pos hr]
  show V c main_arg0 (((cfg1.win 0).blk t).view.emb (ix2 p k)) = V c main_arg0 _
  refine congrArg (V c main_arg0) (funext fun a => Fin.ext ?_)
  match a with
  | ⟨0, _⟩ => show win1_0.index t (0 : Fin 2) * 1024 + 1 * p.val = 1024 * (t.val / 16) + p.val; omega
  | ⟨1, _⟩ => show win1_0.index t (1 : Fin 2) * 512 + 1 * k.val = 512 * (t.val % 8) + k.val; omega

/-- The masked weight's block at a point, read at (q, k). -/
theorem wblk_apply (c : Dev nD) (t : Fin cfg1.N) (q : Fin 2048) (k : Fin 512) :
    wblk V c t (ix2 q k) = wAt (V c main_v0) (2048 * (t.val / 8 % 2) + q.val) (512 * (t.val % 8) + k.val) := by
  have hN : t.val < 128 := lt_of_lt_of_eq t.isLt (show cfg1.N = 128 from N_1)
  obtain ⟨e0, e1, e2, e3, e4, e5⟩ := acc_idx t
  have hr : 2048 * (t.val / 8 % 2) + q.val < 4096 ∧ 512 * (t.val % 8) + k.val < 4096 := by omega
  unfold wAt; rw [dif_pos hr]
  show V c main_v0 (((cfg1.win 1).blk t).view.emb (ix2 q k)) = V c main_v0 _
  refine congrArg (V c main_v0) (funext fun a => Fin.ext ?_)
  match a with
  | ⟨0, _⟩ => show win1_1.index t (0 : Fin 2) * 2048 + 1 * q.val = 2048 * (t.val / 8 % 2) + q.val; omega
  | ⟨1, _⟩ => show win1_1.index t (1 : Fin 2) * 512 + 1 * k.val = 512 * (t.val % 8) + k.val; omega

/-- Point n's addend at entry j of the accumulator: its two blocks' product there. -/
def blockTerm (X : SX.Idx → EReal) (MW : SW.Idx → EReal) (n : ℕ) (j : S1024x2048.Idx) : EReal :=
  ∑ k : Fin 512, xAt X (1024 * (n / 16) + (j 0).val) (512 * (n % 8) + k.val) * wAt MW (2048 * (n / 8 % 2) + (j 1).val) (512 * (n % 8) + k.val)

/-- One accumulation step at an entry: what was there plus the point's addend. -/
theorem step_apply (c : Dev nD) (n : ℕ) (h : n < cfg1.N) (acc : Vec Ideal S1024x2048 .f32) (j : S1024x2048.Idx) :
    k1_pay2 (xblk V c ⟨n, h⟩) (wblk V c ⟨n, h⟩) acc j = acc j + blockTerm (V c main_arg0) (V c main_v0) n j := by
  obtain ⟨p, q, rfl⟩ : ∃ (p : Fin 1024) (q : Fin 2048), j = ix2 p q := ⟨j 0, j 1, eq_ix2 j⟩
  rw [pay2_apply]
  refine congrArg (acc (ix2 p q) + ·) ?_
  unfold blockTerm
  refine Finset.sum_congr rfl fun k _ => ?_
  rw [xblk_apply V c ⟨n, h⟩ p k, wblk_apply V c ⟨n, h⟩ q k]

/-- At a point with k₀ = 7 the accumulator holds, entry by entry, the eight addends of its run. -/
theorem scrAt_last (c : Dev nD) (t : Fin cfg1.N) (h7 : t.val % 8 = 7) (j : S1024x2048.Idx) :
    scrAt V c t.val t.isLt j = ∑ s ∈ Finset.range 8, blockTerm (V c main_arg0) (V c main_v0) (8 * (t.val / 8) + s) j := by
  have hN : t.val < 128 := lt_of_lt_of_eq t.isLt (show cfg1.N = 128 from N_1)
  have h' : 8 * (t.val / 8) + t.val % 8 < cfg1.N := lt_of_lt_of_eq (by omega : 8 * (t.val / 8) + t.val % 8 < 128) (show (128 : ℕ) = cfg1.N from N_1.symm)
  rw [Pipeline.eq_accAt_of_mod (scrAt V c) 8
    (fun n hn => k1_pay2 (xblk V c ⟨n, hn⟩) (wblk V c ⟨n, hn⟩) (k1_pay1 (F := Ideal)))
    (fun n hn acc => k1_pay2 (xblk V c ⟨n, hn⟩) (wblk V c ⟨n, hn⟩) acc)
    (fun n hn h0 => scrAt_first V c ⟨n, hn⟩ h0)
    (fun n hn hne => scrAt_next V c ⟨n + 1, hn⟩ hne)
    (by decide) t.val t.isLt h']
  have hj : t.val % 8 ≤ 7 := by omega
  rw [Pipeline.accAt_add_apply
    (fun n hn => k1_pay2 (xblk V c ⟨n, hn⟩) (wblk V c ⟨n, hn⟩) (k1_pay1 (F := Ideal)))
    (fun n hn acc => k1_pay2 (xblk V c ⟨n, hn⟩) (wblk V c ⟨n, hn⟩) acc)
    (fun _ => (0 : EReal)) (fun n i => blockTerm (V c main_arg0) (V c main_v0) n i) (8 * (t.val / 8)) 7
    (fun hb i => by rw [step_apply V c _ hb, pay1_apply])
    (fun n hn acc i _ _ => step_apply V c n hn acc i)
    (t.val % 8) hj h' j, zero_add, h7]

/-- The eight addends of a run are the eight consecutive runs of 512 of ONE sum over the 4096 columns. -/
theorem run_sum (X : SX.Idx → EReal) (MW : SW.Idx → EReal) (u : ℕ) (hu : u < 16) (p : Fin 1024) (q : Fin 2048) :
    ∑ s ∈ Finset.range 8, blockTerm X MW (8 * u + s) (ix2 p q)
      = ∑ K : Fin 4096, xAt X (1024 * (u / 2) + p.val) K.val * wAt MW (2048 * (u % 2) + q.val) K.val := by
  rw [← sum_runs (fun K => xAt X (1024 * (u / 2) + p.val) K * wAt MW (2048 * (u % 2) + q.val) K)]
  refine Finset.sum_congr rfl fun s hs => ?_
  have hs8 : s < 8 := Finset.mem_range.mp hs
  unfold blockTerm
  refine Finset.sum_congr rfl fun k _ => ?_
  have a1 : (8 * u + s) / 16 = u / 2 := by omega
  have a2 : (8 * u + s) % 8 = s := by omega
  have a3 : (8 * u + s) / 8 % 2 = u % 2 := by omega
  rw [a1, a2, a3]

/-- What a point with k₀ = 7 writes back is its block of the whole product. -/
theorem acc_flushed (c : Dev nD) (t : Fin cfg1.N) (hf : (cfg1.win 2).flush t = true) :
    (accDat V c).flushed 2 t = ((cfg1.win 2).blk t).view.read (Elt Ideal) (prodT (V c main_arg0) (V c main_v0)) := by
  have h7 : t.val % 8 = 7 := (flush1_2 t).mp hf
  have hN : t.val < 128 := lt_of_lt_of_eq t.isLt (show cfg1.N = 128 from N_1)
  obtain ⟨e0, e1, e2, e3, e4, e5⟩ := acc_idx t
  show (cfg1.win 2).cut (grid1.coords t) ((accDat V c).after 2 t) = _
  rw [accDat_after2]
  funext j
  obtain ⟨p, q, rfl⟩ : ∃ (p : Fin 1024) (q : Fin 2048), j = ix2 p q := ⟨j 0, j 1, eq_ix2 j⟩
  show scrAt V c t.val t.isLt (ix2 p q) = prodT (V c main_arg0) (V c main_v0) (((cfg1.win 2).blk t).view.emb (ix2 p q))
  have hr : 1024 * (t.val / 8 / 2) + p.val < 8192 := by omega
  have hc : 2048 * (t.val / 8 % 2) + q.val < 4096 := by omega
  have hemb : ((cfg1.win 2).blk t).view.emb (ix2 p q) = ix2 (⟨1024 * (t.val / 8 / 2) + p.val, hr⟩ : Fin 8192) (⟨2048 * (t.val / 8 % 2) + q.val, hc⟩ : Fin 4096) := by
    funext a; apply Fin.ext
    match a with
    | ⟨0, _⟩ => show win1_2.index t (0 : Fin 2) * 1024 + 1 * p.val = 1024 * (t.val / 8 / 2) + p.val; omega
    | ⟨1, _⟩ => show win1_2.index t (1 : Fin 2) * 2048 + 1 * q.val = 2048 * (t.val / 8 % 2) + q.val; omega
  rw [hemb, prodT_apply, scrAt_last V c t h7, run_sum _ _ (t.val / 8) (by omega) p q]
  refine Finset.sum_congr rfl fun K _ => ?_
  unfold xAt wAt
  rw [dif_pos ⟨hr, K.isLt⟩, dif_pos ⟨hc, K.isLt⟩]

/-- An entry of the output array is in block `t` iff each coordinate is in the block's range. -/
theorem acc_mem_blk (t : Fin cfg1.N) (i : S8192x4096.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v1).slice (win1_2.rect t)).set ↔ _
  rw [View.set_slice_whole, Rect.mem_set_unit]
  exact Iff.rfl

/-- Entry (r, c) lies in block (r / 1024, c / 2048), written back at that block's point with k₀ = 7. -/
theorem out_cover (i : S8192x4096.Idx) : ∃ t : Fin cfg1.N, (cfg1.win 2).flush t = true ∧ i ∈ ((cfg1.win 2).blk t).view.set := by
  have hi0 : (i 0).val < 8192 := (i 0).isLt
  have hi1 : (i 1).val < 4096 := (i 1).isLt
  have hlt : 16 * ((i 0).val / 1024) + 8 * ((i 1).val / 2048) + 7 < cfg1.N :=
    lt_of_lt_of_eq (by omega : 16 * ((i 0).val / 1024) + 8 * ((i 1).val / 2048) + 7 < 128) (show (128 : ℕ) = cfg1.N from N_1.symm)
  refine ⟨⟨16 * ((i 0).val / 1024) + 8 * ((i 1).val / 2048) + 7, hlt⟩, (flush1_2 _).mpr (by dsimp only; omega), ?_⟩
  rw [acc_mem_blk]
  obtain ⟨e0, e1, e2, e3, e4, e5⟩ := acc_idx ⟨16 * ((i 0).val / 1024) + 8 * ((i 1).val / 2048) + 7, hlt⟩
  intro a
  match a with
  | ⟨0, _⟩ => show win1_2.index _ (0 : Fin 2) * 1024 ≤ (i 0).val ∧ (i 0).val < win1_2.index _ (0 : Fin 2) * 1024 + 1024; rw [e4]; dsimp only; omega
  | ⟨1, _⟩ => show win1_2.index _ (1 : Fin 2) * 2048 ≤ (i 1).val ∧ (i 1).val < win1_2.index _ (1 : Fin 2) * 2048 + 2048; rw [e5]; dsimp only; omega

/-- THE OUTPUT ARRAY after the call: x times the transpose of the masked weight, as the call found them. -/
theorem acc_final (c : Dev nD) : (accDat V c).arrAt 2 cfg1.N = prodT (V c main_arg0) (V c main_v0) :=
  (accDat V c).arrAt_eq_of_cover 2 (prodT (V c main_arg0) (V c main_v0)) (fun t hf => acc_flushed V c t hf) out_cover

end Cert.KernelIdeal.Hand

end
-- ==== Proof.RefValue.lean ====
/-
  The reference computes the same function: its dot_general at (r, c) is the sum over k of x(r, k) times the
  transposed product weight ⊙ mask at (k, c), which is weight(c, k) · mask(c, k).
-/
import proofs.«170742_j17849884082830_1_alg».proof.Proof.Gen.ReferenceIdeal.Run
import proofs.«170742_j17849884082830_1_alg».proof.Proof.Gen.ReferenceIdeal.Read
import proofs.«170742_j17849884082830_1_alg».proof.Proof.Spec

noncomputable section

namespace Cert.ReferenceIdeal.RefValue

open Idealize.ShloMosaic Idealize.ShloMosaic.ValueIdx Cert.ReferenceIdeal Cert.ReferenceIdeal.Read Cert.Spec

/-- The reference's result, entry by entry, is x times the transpose of the entrywise product weight ⊙ mask. -/
theorem ref_eq (x0 : (⟨S8192x4096, .f32⟩ : BufTy).Contents (Elt Ideal)) (x1 x2 : (⟨S4096x4096, .f32⟩ : BufTy).Contents (Elt Ideal)) :
    val_main_v2 (F := Ideal) x0 x1 x2 = prodT x0 (maskedW x1 x2) := by
  funext i
  rw [val_main_v2_apply]
  unfold prodT maskedW
  refine Finset.sum_congr rfl fun k _ => ?_
  rw [val_main_v1_apply, val_main_v0_apply]
  have el : lidx_main_v2 i k = ix2 (⟨(i 0).val, (i 0).isLt⟩ : Fin 8192) k :=
    funext fun a => Fin.ext (by match a with | ⟨0, _⟩ => rfl | ⟨1, _⟩ => rfl)
  have er : idx_main_v1 (ridx_main_v2 i k) = ix2 (⟨(i 1).val, (i 1).isLt⟩ : Fin 4096) k :=
    funext fun a => Fin.ext (by match a with | ⟨0, _⟩ => rfl | ⟨1, _⟩ => rfl)
  rw [el, er]
  rfl

end Cert.ReferenceIdeal.RefValue

end
-- ==== Proof.lean ====
/-
  The expander layer `out = x · (weight ⊙ mask)ᵀ`: a Pallas kernel in two pallas_calls against its jnp reference.

  The kernel first forms the masked weight entry by entry (narrowed to bf16, which over the extended reals changes
  nothing), then multiplies x by its transpose block by block, summing the eight K-blocks of each output block in a
  scratch accumulator that starts from zero. The reference forms weight ⊙ mask, transposes it, and takes ONE
  dot_general. Over the extended reals both results at (r, c) are the sum over k < 4096 of x(r, k) · (weight(c, k) · mask(c, k));
  the kernel's is that sum taken in eight consecutive runs of 512, which is the same sum because addition of extended
  reals is commutative and associative. No finiteness of the inputs is used.

  The three frames: each kernel program runs as the two calls in order, each call a pipeline region whose body
  obligation is proved point by point (Proof/Kernel/, Proof/KernelIdeal/: one text read at the two float instances);
  the reference is a line of host operations, its frame the generated run with the result dropped. The ideal pass
  rewrote nothing, so `preserves` is `True`.
-/
import proofs.«170742_j17849884082830_1_alg».proof.Defs
import proofs.«170742_j17849884082830_1_alg».proof.Proof.Gen.Kernel
import proofs.«170742_j17849884082830_1_alg».proof.Proof.Gen.KernelIdeal
import proofs.«170742_j17849884082830_1_alg».proof.Proof.Gen.ReferenceIdeal
import proofs.«170742_j17849884082830_1_alg».proof.Proof.Gen.Pre_finite_inputs
import proofs.«170742_j17849884082830_1_alg».proof.Proof.Gen.ReferenceIdeal.Run
import proofs.«170742_j17849884082830_1_alg».proof.Proof.Gen.ReferenceIdeal.Read
import proofs.«170742_j17849884082830_1_alg».proof.Proof.Kernel.Run
import proofs.«170742_j17849884082830_1_alg».proof.Proof.KernelIdeal.Run
import proofs.«170742_j17849884082830_1_alg».proof.Proof.KernelIdeal.MaskValue
import proofs.«170742_j17849884082830_1_alg».proof.Proof.KernelIdeal.AccValue
import proofs.«170742_j17849884082830_1_alg».proof.Proof.RefValue
import Idealize.ShloMosaic.Adequacy
import Idealize.ShloMosaic.Init

noncomputable section

namespace Cert.Proof

open Idealize.ShloMosaic Idealize.ShloMosaic.TcCoe Idealize.SL.Sem Cert.Spec

/-- The word-level kernel runs to the end, faults nowhere, and leaves its three arguments as launched. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The reference is three host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with `x · (weight ⊙ mask)ᵀ` of the arguments: the kernel's output array is the product call's
    whole-array result at the masked weight the masking call left; the reference's dot_general is the same sum. -/
theorem algebraic : Cert.algebraic_KernelIdeal_ReferenceIdeal := by
  intro m ρ m' ρ' _ hagree
  refine ⟨fun c => prodT (m ((c.tc : Thread Cert.KernelIdeal.nD Cert.KernelIdeal.τ).loc Cert.KernelIdeal.main_arg0))
      (maskedW (m ((c.tc : Thread Cert.KernelIdeal.nD Cert.KernelIdeal.τ).loc Cert.KernelIdeal.main_arg1))
        (m ((c.tc : Thread Cert.KernelIdeal.nD Cert.KernelIdeal.τ).loc Cert.KernelIdeal.main_arg2))), ?_, ?_⟩
  · refine (θ_run Cert.KernelIdeal.defs _ _).mono (fun _ h c => ⟨(h c).1.trans ?_, (h c).2⟩)
      (Cert.KernelIdeal.Hand.run_result (F := Ideal) m ρ)
    rw [Cert.KernelIdeal.Hand.acc_final, Cert.KernelIdeal.Hand.Vmid_main_arg0, Cert.KernelIdeal.Hand.Vmid_main_v0,
      Cert.KernelIdeal.Hand.mask_final]
  · refine (θ_run Cert.ReferenceIdeal.defs _ _).mono (fun _ h c => ⟨?_, (h c).2⟩)
      (Cert.ReferenceIdeal.Value.run (F := Ideal) m' ρ')
    rw [(h c).1, Cert.ReferenceIdeal.Read.val_main_v2_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
